-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64 : Shape := ⟨2, ![32, 64]⟩
abbrev S32x2048x512 : Shape := ⟨3, ![32, 2048, 512]⟩
abbrev S64x32768 : Shape := ⟨2, ![64, 32768]⟩
abbrev S32768 : Shape := ⟨1, ![32768]⟩
abbrev S64x64 : Shape := ⟨2, ![64, 64]⟩
abbrev S64 : Shape := ⟨1, ![64]⟩
abbrev S64x512 : Shape := ⟨2, ![64, 512]⟩
abbrev S512 : Shape := ⟨1, ![512]⟩
abbrev S_ : Shape := ⟨0, ![]⟩

class Facts : Prop where
  bcast_S_S32x64 : S_.BroadcastsInDim S32x64 (![] : Fin 0 → Fin S32x64.rank)
  reducesTo_S32x64_S_d0_1 : S32x64.ReducesTo [0, 1] S_
  h_S_ : 0 < S_.numel
  bcast_S_S32x2048x512 : S_.BroadcastsInDim S32x2048x512 (![] : Fin 0 → Fin S32x2048x512.rank)
  reducesTo_S32x2048x512_S_d0_1_2 : S32x2048x512.ReducesTo [0, 1, 2] S_
  bcast_S_S64x32768 : S_.BroadcastsInDim S64x32768 (![] : Fin 0 → Fin S64x32768.rank)
  reducesTo_S64x32768_S_d0_1 : S64x32768.ReducesTo [0, 1] S_
  bcast_S_S32768 : S_.BroadcastsInDim S32768 (![] : Fin 0 → Fin S32768.rank)
  reducesTo_S32768_S_d0 : S32768.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x512 : S_.BroadcastsInDim S64x512 (![] : Fin 0 → Fin S64x512.rank)
  reducesTo_S64x512_S_d0_1 : S64x512.ReducesTo [0, 1] S_
  bcast_S_S512 : S_.BroadcastsInDim S512 (![] : Fin 0 → Fin S512.rank)
  reducesTo_S512_S_d0 : S512.ReducesTo [0] S_

variable [Facts]

def fn_part5 {F : FTy → Type} [FloatOps F] (main_v83 : IVec S_ 1) (main_v84 : FVec F S512 .f32) (main_cst_32 : FVec F S_ .f32) : IVec S_ 1 :=
  let main_v85 : FVec F S512 .f32 := broadcastInDim S512 ![] bcast_S_S512 main_cst_32
  let main_v86 : IVec S512 1 := cmpf .olt main_v84 main_v85
  let main_c_33 : IVec S_ 1 := constantI S_ 1 1#1
  let main_v87 : IVec S_ 1 := (fun x v => Host.reduce IntOp.andi x v reducesTo_S512_S_d0 h_S_) main_v86 main_c_33
  let main_v88 : IVec S_ 1 := andi main_v83 main_v87
  main_v88

def fn_part4 {F : FTy → Type} [FloatOps F] (main_arg14 : FVec F S64x512 .f32) (main_arg15 : FVec F S512 .f32) (main_arg16 : FVec F S64x512 .f32) (main_arg17 : FVec F S512 .f32) (main_v63 : IVec S_ 1) (main_v67 : IVec S_ 1) : IVec S_ 1 :=
  let main_v68 : IVec S_ 1 := andi main_v63 main_v67
  let main_v69 : FVec F S64x512 .f32 := Host.absf main_arg14
  let main_cst_26 : FVec F S_ .f32 := constant S_ .f32 0x7F800000#32
  let main_v70 : FVec F S64x512 .f32 := broadcastInDim S64x512 ![] bcast_S_S64x512 main_cst_26
  let main_v71 : IVec S64x512 1 := cmpf .olt main_v69 main_v70
  let main_c_27 : IVec S_ 1 := constantI S_ 1 1#1
  let main_v72 : IVec S_ 1 := (fun x v => Host.reduce IntOp.andi x v reducesTo_S64x512_S_d0_1 h_S_) main_v71 main_c_27
  let main_v73 : IVec S_ 1 := andi main_v68 main_v72
  let main_v74 : FVec F S512 .f32 := Host.absf main_arg15
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S64x512 .f32 := Host.absf main_arg16
  let main_cst_30 : FVec F S_ .f32 := constant S_ .f32 0x7F800000#32
  let main_v80 : FVec F S64x512 .f32 := broadcastInDim S64x512 ![] bcast_S_S64x512 main_cst_30
  let main_v81 : IVec S64x512 1 := cmpf .olt main_v79 main_v80
  let main_c_31 : IVec S_ 1 := constantI S_ 1 1#1
  let main_v82 : IVec S_ 1 := (fun x v => Host.reduce IntOp.andi x v reducesTo_S64x512_S_d0_1 h_S_) main_v81 main_c_31
  let main_v83 : IVec S_ 1 := andi main_v78 main_v82
  let main_v84 : FVec F S512 .f32 := Host.absf main_arg17
  let main_cst_32 : FVec F S_ .f32 := constant S_ .f32 0x7F800000#32
  fn_part5 (F := F) main_v83 main_v84 main_cst_32

def fn_part3 {F : FTy → Type} [FloatOps F] (main_arg11 : FVec F S512 .f32) (main_arg12 : FVec F S64x512 .f32) (main_arg13 : FVec F S512 .f32) (main_arg14 : FVec F S64x512 .f32) (main_arg15 : FVec F S512 .f32) (main_arg16 : FVec F S64x512 .f32) (main_arg17 : FVec F S512 .f32) (main_v48 : IVec S_ 1) (main_v49 : FVec F S64x512 .f32) (main_v50 : FVec F S64x512 .f32) : IVec S_ 1 :=
  let main_v51 : IVec S64x512 1 := cmpf .olt main_v49 main_v50
  let main_c_19 : IVec S_ 1 := constantI S_ 1 1#1
  let main_v52 : IVec S_ 1 := (fun x v => Host.reduce IntOp.andi x v reducesTo_S64x512_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S64x512 .f32 := Host.absf main_arg12
  let main_cst_22 : FVec F S_ .f32 := constant S_ .f32 0x7F800000#32
  let main_v60 : FVec F S64x512 .f32 := broadcastInDim S64x512 ![] bcast_S_S64x512 main_cst_22
  let main_v61 : IVec S64x512 1 := cmpf .olt main_v59 main_v60
  let main_c_23 : IVec S_ 1 := constantI S_ 1 1#1
  let main_v62 : IVec S_ 1 := (fun x v => Host.reduce IntOp.andi x v reducesTo_S64x512_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_arg15 main_arg16 main_arg17 main_v63 main_v67

def fn_part2 {F : FTy → Type} [FloatOps F] (main_arg7 : FVec F S32768 .f32) (main_arg8 : FVec F S64x512 .f32) (main_arg9 : FVec F S512 .f32) (main_arg10 : FVec F S64x512 .f32) (main_arg11 : FVec F S512 .f32) (main_arg12 : FVec F S64x512 .f32) (main_arg13 : FVec F S512 .f32) (main_arg14 : FVec F S64x512 .f32) (main_arg15 : FVec F S512 .f32) (main_arg16 : FVec F S64x512 .f32) (main_arg17 : FVec F S512 .f32) (main_v33 : IVec S_ 1) : IVec S_ 1 :=
  let main_v34 : FVec F S32768 .f32 := Host.absf main_arg7
  let main_cst_12 : FVec F S_ .f32 := constant S_ .f32 0x7F800000#32
  let main_v35 : FVec F S32768 .f32 := broadcastInDim S32768 ![] bcast_S_S32768 main_cst_12
  let main_v36 : IVec S32768 1 := cmpf .olt main_v34 main_v35
  let main_c_13 : IVec S_ 1 := constantI S_ 1 1#1
  let main_v37 : IVec S_ 1 := (fun x v => Host.reduce IntOp.andi x v reducesTo_S32768_S_d0 h_S_) main_v36 main_c_13
  let main_v38 : IVec S_ 1 := andi main_v33 main_v37
  let main_v39 : FVec F S64x512 .f32 := Host.absf main_arg8
  let main_cst_14 : FVec F S_ .f32 := constant S_ .f32 0x7F800000#32
  let main_v40 : FVec F S64x512 .f32 := broadcastInDim S64x512 ![] bcast_S_S64x512 main_cst_14
  let main_v41 : IVec S64x512 1 := cmpf .olt main_v39 main_v40
  let main_c_15 : IVec S_ 1 := constantI S_ 1 1#1
  let main_v42 : IVec S_ 1 := (fun x v => Host.reduce IntOp.andi x v reducesTo_S64x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S64x512 .f32 := Host.absf main_arg10
  let main_cst_18 : FVec F S_ .f32 := constant S_ .f32 0x7F800000#32
  let main_v50 : FVec F S64x512 .f32 := broadcastInDim S64x512 ![] bcast_S_S64x512 main_cst_18
  fn_part3 (F := F) main_arg11 main_arg12 main_arg13 main_arg14 main_arg15 main_arg16 main_arg17 main_v48 main_v49 main_v50

def fn_part1 {F : FTy → Type} [FloatOps F] (main_arg4 : FVec F S64x64 .f32) (main_arg5 : FVec F S64 .f32) (main_arg6 : FVec F S64x32768 .f32) (main_arg7 : FVec F S32768 .f32) (main_arg8 : FVec F S64x512 .f32) (main_arg9 : FVec F S512 .f32) (main_arg10 : FVec F S64x512 .f32) (main_arg11 : FVec F S512 .f32) (main_arg12 : FVec F S64x512 .f32) (main_arg13 : FVec F S512 .f32) (main_arg14 : FVec F S64x512 .f32) (main_arg15 : FVec F S512 .f32) (main_arg16 : FVec F S64x512 .f32) (main_arg17 : FVec F S512 .f32) (main_v13 : IVec S_ 1) (main_v16 : IVec S32768 1) : IVec S_ 1 :=
  let main_c_5 : IVec S_ 1 := constantI S_ 1 1#1
  let main_v17 : IVec S_ 1 := (fun x v => Host.reduce IntOp.andi x v reducesTo_S32768_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x32768 .f32 := Host.absf main_arg6
  let main_cst_10 : FVec F S_ .f32 := constant S_ .f32 0x7F800000#32
  let main_v30 : FVec F S64x32768 .f32 := broadcastInDim S64x32768 ![] bcast_S_S64x32768 main_cst_10
  let main_v31 : IVec S64x32768 1 := cmpf .olt main_v29 main_v30
  let main_c_11 : IVec S_ 1 := constantI S_ 1 1#1
  let main_v32 : IVec S_ 1 := (fun x v => Host.reduce IntOp.andi x v reducesTo_S64x32768_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S32x64 .f32) (main_arg1 : FVec F S32x2048x512 .f32) (main_arg2 : FVec F S64x32768 .f32) (main_arg3 : FVec F S32768 .f32) (main_arg4 : FVec F S64x64 .f32) (main_arg5 : FVec F S64 .f32) (main_arg6 : FVec F S64x32768 .f32) (main_arg7 : FVec F S32768 .f32) (main_arg8 : FVec F S64x512 .f32) (main_arg9 : FVec F S512 .f32) (main_arg10 : FVec F S64x512 .f32) (main_arg11 : FVec F S512 .f32) (main_arg12 : FVec F S64x512 .f32) (main_arg13 : FVec F S512 .f32) (main_arg14 : FVec F S64x512 .f32) (main_arg15 : FVec F S512 .f32) (main_arg16 : FVec F S64x512 .f32) (main_arg17 : FVec F S512 .f32) : IVec S_ 1 :=
  let main_v0 : FVec F S32x64 .f32 := Host.absf main_arg0
  let main_cst : FVec F S_ .f32 := constant S_ .f32 0x7F800000#32
  let main_v1 : FVec F S32x64 .f32 := broadcastInDim S32x64 ![] bcast_S_S32x64 main_cst
  let main_v2 : IVec S32x64 1 := cmpf .olt main_v0 main_v1
  let main_c : IVec S_ 1 := constantI S_ 1 1#1
  let main_v3 : IVec S_ 1 := (fun x v => Host.reduce IntOp.andi x v reducesTo_S32x64_S_d0_1 h_S_) main_v2 main_c
  let main_v4 : FVec F S32x2048x512 .f32 := Host.absf main_arg1
  let main_cst_0 : FVec F S_ .f32 := constant S_ .f32 0x7F800000#32
  let main_v5 : FVec F S32x2048x512 .f32 := broadcastInDim S32x2048x512 ![] bcast_S_S32x2048x512 main_cst_0
  let main_v6 : IVec S32x2048x512 1 := cmpf .olt main_v4 main_v5
  let main_c_1 : IVec S_ 1 := constantI S_ 1 1#1
  let main_v7 : IVec S_ 1 := (fun x v => Host.reduce IntOp.andi x v reducesTo_S32x2048x512_S_d0_1_2 h_S_) main_v6 main_c_1
  let main_v8 : IVec S_ 1 := andi main_v3 main_v7
  let main_v9 : FVec F S64x32768 .f32 := Host.absf main_arg2
  let main_cst_2 : FVec F S_ .f32 := constant S_ .f32 0x7F800000#32
  let main_v10 : FVec F S64x32768 .f32 := broadcastInDim S64x32768 ![] bcast_S_S64x32768 main_cst_2
  let main_v11 : IVec S64x32768 1 := cmpf .olt main_v9 main_v10
  let main_c_3 : IVec S_ 1 := constantI S_ 1 1#1
  let main_v12 : IVec S_ 1 := (fun x v => Host.reduce IntOp.andi x v reducesTo_S64x32768_S_d0_1 h_S_) main_v11 main_c_3
  let main_v13 : IVec S_ 1 := andi main_v8 main_v12
  let main_v14 : FVec F S32768 .f32 := Host.absf main_arg3
  let main_cst_4 : FVec F S_ .f32 := constant S_ .f32 0x7F800000#32
  let main_v15 : FVec F S32768 .f32 := broadcastInDim S32768 ![] bcast_S_S32768 main_cst_4
  let main_v16 : IVec S32768 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S32x64 : Shape := ⟨2, ![32, 64]⟩
abbrev S32x2048x512 : Shape := ⟨3, ![32, 2048, 512]⟩
abbrev S64x32768 : Shape := ⟨2, ![64, 32768]⟩
abbrev S32768 : Shape := ⟨1, ![32768]⟩
abbrev S64x64 : Shape := ⟨2, ![64, 64]⟩
abbrev S64 : Shape := ⟨1, ![64]⟩
abbrev S64x512 : Shape := ⟨2, ![64, 512]⟩
abbrev S512 : Shape := ⟨1, ![512]⟩
abbrev S32x32768 : Shape := ⟨2, ![32, 32768]⟩
abbrev S1x32768 : Shape := ⟨2, ![1, 32768]⟩
abbrev S32x64x512 : Shape := ⟨3, ![32, 64, 512]⟩
abbrev S1x64 : Shape := ⟨2, ![1, 64]⟩
abbrev S32x1x64 : Shape := ⟨3, ![32, 1, 64]⟩
abbrev S32x512x64 : Shape := ⟨3, ![32, 512, 64]⟩
abbrev S32x512 : Shape := ⟨2, ![32, 512]⟩
abbrev S1x512 : Shape := ⟨2, ![1, 512]⟩
abbrev S32x1x512 : Shape := ⟨3, ![32, 1, 512]⟩
abbrev S1x512x512 : Shape := ⟨3, ![1, 512, 512]⟩
abbrev S1x64x512 : Shape := ⟨3, ![1, 64, 512]⟩
abbrev S1x1x64 : Shape := ⟨3, ![1, 1, 64]⟩
abbrev S1x512x64 : Shape := ⟨3, ![1, 512, 64]⟩
abbrev S1x1x512 : Shape := ⟨3, ![1, 1, 512]⟩
abbrev S512x512 : Shape := ⟨2, ![512, 512]⟩
abbrev S512x1 : Shape := ⟨2, ![512, 1]⟩
abbrev S512x64 : Shape := ⟨2, ![512, 64]⟩

abbrev nBuf : Space → Nat
  | .hbm => 59
  | .vmem => 20
  | .smem => 0
  | _ => 0

abbrev bufTy : (tb : Table) → Fin (tcTables nBuf tb) → BufTy
  | .hbm, ⟨0, _⟩ => ⟨S32x64, .f32⟩
  | .hbm, ⟨1, _⟩ => ⟨S32x2048x512, .f32⟩
  | .hbm, ⟨2, _⟩ => ⟨S64x32768, .f32⟩
  | .hbm, ⟨3, _⟩ => ⟨S32768, .f32⟩
  | .hbm, ⟨4, _⟩ => ⟨S64x64, .f32⟩
  | .hbm, ⟨5, _⟩ => ⟨S64, .f32⟩
  | .hbm, ⟨6, _⟩ => ⟨S64x32768, .f32⟩
  | .hbm, ⟨7, _⟩ => ⟨S32768, .f32⟩
  | .hbm, ⟨8, _⟩ => ⟨S64x512, .f32⟩
  | .hbm, ⟨9, _⟩ => ⟨S512, .f32⟩
  | .hbm, ⟨10, _⟩ => ⟨S64x512, .f32⟩
  | .hbm, ⟨11, _⟩ => ⟨S512, .f32⟩
  | .hbm, ⟨12, _⟩ => ⟨S64x512, .f32⟩
  | .hbm, ⟨13, _⟩ => ⟨S512, .f32⟩
  | .hbm, ⟨14, _⟩ => ⟨S64x512, .f32⟩
  | .hbm, ⟨15, _⟩ => ⟨S512, .f32⟩
  | .hbm, ⟨16, _⟩ => ⟨S64x512, .f32⟩
  | .hbm, ⟨17, _⟩ => ⟨S512, .f32⟩
  | .hbm, ⟨18, _⟩ => ⟨S32x32768, .f32⟩
  | .hbm, ⟨19, _⟩ => ⟨S1x32768, .f32⟩
  | .hbm, ⟨20, _⟩ => ⟨S32x32768, .f32⟩
  | .hbm, ⟨21, _⟩ => ⟨S32x32768, .f32⟩
  | .hbm, ⟨22, _⟩ => ⟨S32x64x512, .f32⟩
  | .hbm, ⟨23, _⟩ => ⟨S32x64, .f32⟩
  | .hbm, ⟨24, _⟩ => ⟨S1x64, .f32⟩
  | .hbm, ⟨25, _⟩ => ⟨S32x64, .f32⟩
  | .hbm, ⟨26, _⟩ => ⟨S32x64, .f32⟩
  | .hbm, ⟨27, _⟩ => ⟨S32x1x64, .f32⟩
  | .hbm, ⟨28, _⟩ => ⟨S32x32768, .f32⟩
  | .hbm, ⟨29, _⟩ => ⟨S1x32768, .f32⟩
  | .hbm, ⟨30, _⟩ => ⟨S32x32768, .f32⟩
  | .hbm, ⟨31, _⟩ => ⟨S32x32768, .f32⟩
  | .hbm, ⟨32, _⟩ => ⟨S32x512x64, .f32⟩
  | .hbm, ⟨33, _⟩ => ⟨S32x512, .f32⟩
  | .hbm, ⟨34, _⟩ => ⟨S1x512, .f32⟩
  | .hbm, ⟨35, _⟩ => ⟨S32x512, .f32⟩
  | .hbm, ⟨36, _⟩ => ⟨S32x512, .f32⟩
  | .hbm, ⟨37, _⟩ => ⟨S32x1x512, .f32⟩
  | .hbm, ⟨38, _⟩ => ⟨S32x512, .f32⟩
  | .hbm, ⟨39, _⟩ => ⟨S1x512, .f32⟩
  | .hbm, ⟨40, _⟩ => ⟨S32x512, .f32⟩
  | .hbm, ⟨41, _⟩ => ⟨S32x512, .f32⟩
  | .hbm, ⟨42, _⟩ => ⟨S32x1x512, .f32⟩
  | .hbm, ⟨43, _⟩ => ⟨S32x512, .f32⟩
  | .hbm, ⟨44, _⟩ => ⟨S1x512, .f32⟩
  | .hbm, ⟨45, _⟩ => ⟨S32x512, .f32⟩
  | .hbm, ⟨46, _⟩ => ⟨S32x512, .f32⟩
  | .hbm, ⟨47, _⟩ => ⟨S32x1x512, .f32⟩
  | .hbm, ⟨48, _⟩ => ⟨S32x512, .f32⟩
  | .hbm, ⟨49, _⟩ => ⟨S1x512, .f32⟩
  | .hbm, ⟨50, _⟩ => ⟨S32x512, .f32⟩
  | .hbm, ⟨51, _⟩ => ⟨S32x512, .f32⟩
  | .hbm, ⟨52, _⟩ => ⟨S32x1x512, .f32⟩
  | .hbm, ⟨53, _⟩ => ⟨S32x512, .f32⟩
  | .hbm, ⟨54, _⟩ => ⟨S1x512, .f32⟩
  | .hbm, ⟨55, _⟩ => ⟨S32x512, .f32⟩
  | .hbm, ⟨56, _⟩ => ⟨S32x512, .f32⟩
  | .hbm, ⟨57, _⟩ => ⟨S32x1x512, .f32⟩
  | .hbm, ⟨58, _⟩ => ⟨S32x2048x512, .f32⟩
  | .local _ .vmem, ⟨0, _⟩ => ⟨S1x512x512, .f32⟩
  | .local _ .vmem, ⟨1, _⟩ => ⟨S1x512x512, .f32⟩
  | .local _ .vmem, ⟨2, _⟩ => ⟨S1x64x512, .f32⟩
  | .local _ .vmem, ⟨3, _⟩ => ⟨S1x64x512, .f32⟩
  | .local _ .vmem, ⟨4, _⟩ => ⟨S1x1x64, .f32⟩
  | .local _ .vmem, ⟨5, _⟩ => ⟨S1x1x64, .f32⟩
  | .local _ .vmem, ⟨6, _⟩ => ⟨S1x512x64, .f32⟩
  | .local _ .vmem, ⟨7, _⟩ => ⟨S1x512x64, .f32⟩
  | .local _ .vmem, ⟨8, _⟩ => ⟨S1x1x512, .f32⟩
  | .local _ .vmem, ⟨9, _⟩ => ⟨S1x1x512, .f32⟩
  | .local _ .vmem, ⟨10, _⟩ => ⟨S1x1x512, .f32⟩
  | .local _ .vmem, ⟨11, _⟩ => ⟨S1x1x512, .f32⟩
  | .local _ .vmem, ⟨12, _⟩ => ⟨S1x1x512, .f32⟩
  | .local _ .vmem, ⟨13, _⟩ => ⟨S1x1x512, .f32⟩
  | .local _ .vmem, ⟨14, _⟩ => ⟨S1x1x512, .f32⟩
  | .local _ .vmem, ⟨15, _⟩ => ⟨S1x1x512, .f32⟩
  | .local _ .vmem, ⟨16, _⟩ => ⟨S1x1x512, .f32⟩
  | .local _ .vmem, ⟨17, _⟩ => ⟨S1x1x512, .f32⟩
  | .local _ .vmem, ⟨18, _⟩ => ⟨S1x512x512, .f32⟩
  | .local _ .vmem, ⟨19, _⟩ => ⟨S1x512x512, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  bcast_S32768_S1x32768_1 : S32768.BroadcastsInDim S1x32768 (![1] : Fin 1 → Fin S1x32768.rank)
  bcast_S1x32768_S32x32768_0_1 : S1x32768.BroadcastsInDim S32x32768 (![0, 1] : Fin 2 → Fin S32x32768.rank)
  shapeCasts_S32x32768_S32x64x512 : S32x32768.ShapeCasts S32x64x512
  bcast_S64_S1x64_1 : S64.BroadcastsInDim S1x64 (![1] : Fin 1 → Fin S1x64.rank)
  bcast_S1x64_S32x64_0_1 : S1x64.BroadcastsInDim S32x64 (![0, 1] : Fin 2 → Fin S32x64.rank)
  shapeCasts_S32x64_S32x1x64 : S32x64.ShapeCasts S32x1x64
  shapeCasts_S32x32768_S32x512x64 : S32x32768.ShapeCasts S32x512x64
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  shapeCasts_S32x512_S32x1x512 : S32x512.ShapeCasts S32x1x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  reduces_S512x512_S512 : S512x512.Reduces [1] S512
  shapeCasts_S512_S512x1 : S512.ShapeCasts S512x1
  broadcasts_S512x1_S512x512 : S512x1.Broadcasts S512x512
  broadcasts_S1x512_S512x512 : S1x512.Broadcasts S512x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  bitsLt_bf16_f32 : FTy.bits .bf16 < FTy.bits .f32
  broadcasts_S1x64_S512x64 : S1x64.Broadcasts S512x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S512x512_S1x512x512 : S512x512.ShapeCasts S1x512x512
  dot_S32x64_S64x32768_S32x32768_1_0_0_1_n_n_wf : DotDims.WF S32x64 S64x32768 S32x32768 [1] [0] [0] [1] [] []
  dot_S32x64_S64x64_S32x64_1_0_0_1_n_n_wf : DotDims.WF S32x64 S64x64 S32x64 [1] [0] [0] [1] [] []
  dot_S32x64_S64x512_S32x512_1_0_0_1_n_n_wf : DotDims.WF S32x64 S64x512 S32x512 [1] [0] [0] [1] [] []
  dot_S512x512_S64x512_S512x64_1_1_0_0_n_n_wf : DotDims.WF S512x512 S64x512 S512x64 [1] [1] [0] [0] [] []
  dot_S512x64_S512x64_S512x512_1_1_0_0_n_n_wf : DotDims.WF S512x64 S512x64 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S32x2048x512.size a
  hwx0_0 : ∀ i : grid0.Coords, EltTy.bits .f32 = 32 ∨ (Rect.block (s := S32x2048x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S32x64x512.size a
  hwx0_1 : ∀ i : grid0.Coords, EltTy.bits .f32 = 32 ∨ (Rect.block (s := S32x64x512) S1x64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x64.size a ≤ S32x1x64.size a
  hwx0_2 : ∀ i : grid0.Coords, EltTy.bits .f32 = 32 ∨ (Rect.block (s := S32x1x64) S1x1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S32x512x64.size a
  hwx0_3 : ∀ i : grid0.Coords, EltTy.bits .f32 = 32 ∨ (Rect.block (s := S32x512x64) S1x512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512.size a ≤ S32x1x512.size a
  hwx0_4 : ∀ i : grid0.Coords, EltTy.bits .f32 = 32 ∨ (Rect.block (s := S32x1x512) S1x1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512.size a ≤ S32x1x512.size a
  hwx0_5 : ∀ i : grid0.Coords, EltTy.bits .f32 = 32 ∨ (Rect.block (s := S32x1x512) S1x1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x512.size a ≤ S32x1x512.size a
  hwx0_6 : ∀ i : grid0.Coords, EltTy.bits .f32 = 32 ∨ (Rect.block (s := S32x1x512) S1x1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x512.size a ≤ S32x1x512.size a
  hwx0_7 : ∀ i : grid0.Coords, EltTy.bits .f32 = 32 ∨ (Rect.block (s := S32x1x512) S1x1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x512.size a ≤ S32x1x512.size a
  hwx0_8 : ∀ i : grid0.Coords, EltTy.bits .f32 = 32 ∨ (Rect.block (s := S32x1x512) S1x1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512x512.size a ≤ S32x2048x512.size a
  hwx0_9 : ∀ i : grid0.Coords, EltTy.bits .f32 = 32 ∨ (Rect.block (s := S32x2048x512) S1x512x512.size (cc0_transform_9 i) (hinb0_9 i)).WholeWords (EltTy.packing .f32)

variable [Facts₀]

def dot_S32x64_S64x32768_S32x32768_1_0_0_1_n_n : DotDims S32x64 S64x32768 S32x32768 where
  lhsContracting := [1]
  rhsContracting := [0]
  lhsNonContracting := [0]
  rhsNonContracting := [1]
  lhsBatch := []
  rhsBatch := []
  wf := dot_S32x64_S64x32768_S32x32768_1_0_0_1_n_n_wf
def dot_S32x64_S64x64_S32x64_1_0_0_1_n_n : DotDims S32x64 S64x64 S32x64 where
  lhsContracting := [1]
  rhsContracting := [0]
  lhsNonContracting := [0]
  rhsNonContracting := [1]
  lhsBatch := []
  rhsBatch := []
  wf := dot_S32x64_S64x64_S32x64_1_0_0_1_n_n_wf
def dot_S32x64_S64x512_S32x512_1_0_0_1_n_n : DotDims S32x64 S64x512 S32x512 where
  lhsContracting := [1]
  rhsContracting := [0]
  lhsNonContracting := [0]
  rhsNonContracting := [1]
  lhsBatch := []
  rhsBatch := []
  wf := dot_S32x64_S64x512_S32x512_1_0_0_1_n_n_wf
def dot_S512x512_S64x512_S512x64_1_1_0_0_n_n : DotDims S512x512 S64x512 S512x64 where
  lhsContracting := [1]
  rhsContracting := [1]
  lhsNonContracting := [0]
  rhsNonContracting := [0]
  lhsBatch := []
  rhsBatch := []
  wf := dot_S512x512_S64x512_S512x64_1_1_0_0_n_n_wf
def dot_S512x64_S512x64_S512x512_1_1_0_0_n_n : DotDims S512x64 S512x64 S512x512 where
  lhsContracting := [1]
  rhsContracting := [1]
  lhsNonContracting := [0]
  rhsNonContracting := [0]
  lhsBatch := []
  rhsBatch := []
  wf := dot_S512x64_S512x64_S512x512_1_1_0_0_n_n_wf

abbrev win0_0 : Pipeline.Window sig grid0 :=
  Pipeline.Window.ofSpec (Memref.whole main_arg1) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x1x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x512x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1x1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v29) S1x1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v34) S1x1x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v39) S1x1x512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v40) S1x512x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S32x64 : Shape := ⟨2, ![32, 64]⟩
abbrev S32x2048x512 : Shape := ⟨3, ![32, 2048, 512]⟩
abbrev S64x32768 : Shape := ⟨2, ![64, 32768]⟩
abbrev S32768 : Shape := ⟨1, ![32768]⟩
abbrev S64x64 : Shape := ⟨2, ![64, 64]⟩
abbrev S64 : Shape := ⟨1, ![64]⟩
abbrev S64x512 : Shape := ⟨2, ![64, 512]⟩
abbrev S512 : Shape := ⟨1, ![512]⟩
abbrev S32x32768 : Shape := ⟨2, ![32, 32768]⟩
abbrev S1x32768 : Shape := ⟨2, ![1, 32768]⟩
abbrev S32x64x512 : Shape := ⟨3, ![32, 64, 512]⟩
abbrev S1x64 : Shape := ⟨2, ![1, 64]⟩
abbrev S32x512x64 : Shape := ⟨3, ![32, 512, 64]⟩
abbrev S32x512 : Shape := ⟨2, ![32, 512]⟩
abbrev S1x512 : Shape := ⟨2, ![1, 512]⟩
abbrev S_ : Shape := ⟨0, ![]⟩
abbrev S32x2048 : Shape := ⟨2, ![32, 2048]⟩
abbrev S32x2048x1 : Shape := ⟨3, ![32, 2048, 1]⟩
abbrev S32x1x512 : Shape := ⟨3, ![32, 1, 512]⟩
abbrev S32x2048x64 : Shape := ⟨3, ![32, 2048, 64]⟩
abbrev S32x1x64 : Shape := ⟨3, ![32, 1, 64]⟩

abbrev nBuf : Space → Nat
  | .hbm => 122
  | .vmem => 0
  | .smem => 0
  | _ => 0

abbrev bufTy : (tb : Table) → Fin (tcTables nBuf tb) → BufTy
  | .hbm, ⟨0, _⟩ => ⟨S32x64, .f32⟩
  | .hbm, ⟨1, _⟩ => ⟨S32x2048x512, .f32⟩
  | .hbm, ⟨2, _⟩ => ⟨S64x32768, .f32⟩
  | .hbm, ⟨3, _⟩ => ⟨S32768, .f32⟩
  | .hbm, ⟨4, _⟩ => ⟨S64x64, .f32⟩
  | .hbm, ⟨5, _⟩ => ⟨S64, .f32⟩
  | .hbm, ⟨6, _⟩ => ⟨S64x32768, .f32⟩
  | .hbm, ⟨7, _⟩ => ⟨S32768, .f32⟩
  | .hbm, ⟨8, _⟩ => ⟨S64x512, .f32⟩
  | .hbm, ⟨9, _⟩ => ⟨S512, .f32⟩
  | .hbm, ⟨10, _⟩ => ⟨S64x512, .f32⟩
  | .hbm, ⟨11, _⟩ => ⟨S512, .f32⟩
  | .hbm, ⟨12, _⟩ => ⟨S64x512, .f32⟩
  | .hbm, ⟨13, _⟩ => ⟨S512, .f32⟩
  | .hbm, ⟨14, _⟩ => ⟨S64x512, .f32⟩
  | .hbm, ⟨15, _⟩ => ⟨S512, .f32⟩
  | .hbm, ⟨16, _⟩ => ⟨S64x512, .f32⟩
  | .hbm, ⟨17, _⟩ => ⟨S512, .f32⟩
  | .hbm, ⟨18, _⟩ => ⟨S32x32768, .f32⟩
  | .hbm, ⟨19, _⟩ => ⟨S1x32768, .f32⟩
  | .hbm, ⟨20, _⟩ => ⟨S32x32768, .f32⟩
  | .hbm, ⟨21, _⟩ => ⟨S32x32768, .f32⟩
  | .hbm, ⟨22, _⟩ => ⟨S32x64x512, .f32⟩
  | .hbm, ⟨23, _⟩ => ⟨S32x64, .f32⟩
  | .hbm, ⟨24, _⟩ => ⟨S1x64, .f32⟩
  | .hbm, ⟨25, _⟩ => ⟨S32x64, .f32⟩
  | .hbm, ⟨26, _⟩ => ⟨S32x64, .f32⟩
  | .hbm, ⟨27, _⟩ => ⟨S32x32768, .f32⟩
  | .hbm, ⟨28, _⟩ => ⟨S1x32768, .f32⟩
  | .hbm, ⟨29, _⟩ => ⟨S32x32768, .f32⟩
  | .hbm, ⟨30, _⟩ => ⟨S32x32768, .f32⟩
  | .hbm, ⟨31, _⟩ => ⟨S32x512x64, .f32⟩
  | .hbm, ⟨32, _⟩ => ⟨S32x512, .f32⟩
  | .hbm, ⟨33, _⟩ => ⟨S1x512, .f32⟩
  | .hbm, ⟨34, _⟩ => ⟨S32x512, .f32⟩
  | .hbm, ⟨35, _⟩ => ⟨S32x512, .f32⟩
  | .hbm, ⟨36, _⟩ => ⟨S32x512, .f32⟩
  | .hbm, ⟨37, _⟩ => ⟨S1x512, .f32⟩
  | .hbm, ⟨38, _⟩ => ⟨S32x512, .f32⟩
  | .hbm, ⟨39, _⟩ => ⟨S32x512, .f32⟩
  | .hbm, ⟨40, _⟩ => ⟨S32x512, .f32⟩
  | .hbm, ⟨41, _⟩ => ⟨S1x512, .f32⟩
  | .hbm, ⟨42, _⟩ => ⟨S32x512, .f32⟩
  | .hbm, ⟨43, _⟩ => ⟨S32x512, .f32⟩
  | .hbm, ⟨44, _⟩ => ⟨S_, .f32⟩
  | .hbm, ⟨45, _⟩ => ⟨S32x2048, .f32⟩
  | .hbm, ⟨46, _⟩ => ⟨S32x2048x1, .f32⟩
  | .hbm, ⟨47, _⟩ => ⟨S_, .f32⟩
  | .hbm, ⟨48, _⟩ => ⟨S32x2048x1, .f32⟩
  | .hbm, ⟨49, _⟩ => ⟨S32x2048x1, .f32⟩
  | .hbm, ⟨50, _⟩ => ⟨S32x2048x512, .f32⟩
  | .hbm, ⟨51, _⟩ => ⟨S32x2048x512, .f32⟩
  | .hbm, ⟨52, _⟩ => ⟨S32x2048x512, .f32⟩
  | .hbm, ⟨53, _⟩ => ⟨S_, .f32⟩
  | .hbm, ⟨54, _⟩ => ⟨S32x2048, .f32⟩
  | .hbm, ⟨55, _⟩ => ⟨S32x2048x1, .f32⟩
  | .hbm, ⟨56, _⟩ => ⟨S_, .f32⟩
  | .hbm, ⟨57, _⟩ => ⟨S32x2048x1, .f32⟩
  | .hbm, ⟨58, _⟩ => ⟨S32x2048x1, .f32⟩
  | .hbm, ⟨59, _⟩ => ⟨S_, .f32⟩
  | .hbm, ⟨60, _⟩ => ⟨S32x2048x1, .f32⟩
  | .hbm, ⟨61, _⟩ => ⟨S32x2048x1, .f32⟩
  | .hbm, ⟨62, _⟩ => ⟨S32x2048x512, .f32⟩
  | .hbm, ⟨63, _⟩ => ⟨S32x2048x512, .f32⟩
  | .hbm, ⟨64, _⟩ => ⟨S32x2048x1, .f32⟩
  | .hbm, ⟨65, _⟩ => ⟨S32x2048x512, .f32⟩
  | .hbm, ⟨66, _⟩ => ⟨S32x2048x512, .f32⟩
  | .hbm, ⟨67, _⟩ => ⟨S32x1x512, .f32⟩
  | .hbm, ⟨68, _⟩ => ⟨S32x2048x512, .f32⟩
  | .hbm, ⟨69, _⟩ => ⟨S32x2048x512, .f32⟩
  | .hbm, ⟨70, _⟩ => ⟨S32x1x512, .f32⟩
  | .hbm, ⟨71, _⟩ => ⟨S32x2048x512, .f32⟩
  | .hbm, ⟨72, _⟩ => ⟨S32x2048x512, .f32⟩
  | .hbm, ⟨73, _⟩ => ⟨S32x2048x64, .f32⟩
  | .hbm, ⟨74, _⟩ => ⟨S32x1x64, .f32⟩
  | .hbm, ⟨75, _⟩ => ⟨S32x2048x64, .f32⟩
  | .hbm, ⟨76, _⟩ => ⟨S32x2048x64, .f32⟩
  | .hbm, ⟨77, _⟩ => ⟨S_, .f32⟩
  | .hbm, ⟨78, _⟩ => ⟨S32x2048x64, .f32⟩
  | .hbm, ⟨79, _⟩ => ⟨S32x2048x64, .f32⟩
  | .hbm, ⟨80, _⟩ => ⟨S32x2048x512, .f32⟩
  | .hbm, ⟨81, _⟩ => ⟨S32x1x512, .f32⟩
  | .hbm, ⟨82, _⟩ => ⟨S32x2048x512, .f32⟩
  | .hbm, ⟨83, _⟩ => ⟨S32x2048x512, .f32⟩
  | .hbm, ⟨84, _⟩ => ⟨S32x512, .f32⟩
  | .hbm, ⟨85, _⟩ => ⟨S1x512, .f32⟩
  | .hbm, ⟨86, _⟩ => ⟨S32x512, .f32⟩
  | .hbm, ⟨87, _⟩ => ⟨S32x512, .f32⟩
  | .hbm, ⟨88, _⟩ => ⟨S32x512, .f32⟩
  | .hbm, ⟨89, _⟩ => ⟨S1x512, .f32⟩
  | .hbm, ⟨90, _⟩ => ⟨S32x512, .f32⟩
  | .hbm, ⟨91, _⟩ => ⟨S32x512, .f32⟩
  | .hbm, ⟨92, _⟩ => ⟨S_, .f32⟩
  | .hbm, ⟨93, _⟩ => ⟨S32x2048, .f32⟩
  | .hbm, ⟨94, _⟩ => ⟨S32x2048x1, .f32⟩
  | .hbm, ⟨95, _⟩ => ⟨S_, .f32⟩
  | .hbm, ⟨96, _⟩ => ⟨S32x2048x1, .f32⟩
  | .hbm, ⟨97, _⟩ => ⟨S32x2048x1, .f32⟩
  | .hbm, ⟨98, _⟩ => ⟨S32x2048x512, .f32⟩
  | .hbm, ⟨99, _⟩ => ⟨S32x2048x512, .f32⟩
  | .hbm, ⟨100, _⟩ => ⟨S32x2048x512, .f32⟩
  | .hbm, ⟨101, _⟩ => ⟨S_, .f32⟩
  | .hbm, ⟨102, _⟩ => ⟨S32x2048, .f32⟩
  | .hbm, ⟨103, _⟩ => ⟨S32x2048x1, .f32⟩
  | .hbm, ⟨104, _⟩ => ⟨S_, .f32⟩
  | .hbm, ⟨105, _⟩ => ⟨S32x2048x1, .f32⟩
  | .hbm, ⟨106, _⟩ => ⟨S32x2048x1, .f32⟩
  | .hbm, ⟨107, _⟩ => ⟨S_, .f32⟩
  | .hbm, ⟨108, _⟩ => ⟨S32x2048x1, .f32⟩
  | .hbm, ⟨109, _⟩ => ⟨S32x2048x1, .f32⟩
  | .hbm, ⟨110, _⟩ => ⟨S32x2048x512, .f32⟩
  | .hbm, ⟨111, _⟩ => ⟨S32x2048x512, .f32⟩
  | .hbm, ⟨112, _⟩ => ⟨S32x2048x1, .f32⟩
  | .hbm, ⟨113, _⟩ => ⟨S32x2048x512, .f32⟩
  | .hbm, ⟨114, _⟩ => ⟨S32x2048x512, .f32⟩
  | .hbm, ⟨115, _⟩ => ⟨S32x1x512, .f32⟩
  | .hbm, ⟨116, _⟩ => ⟨S32x2048x512, .f32⟩
  | .hbm, ⟨117, _⟩ => ⟨S32x2048x512, .f32⟩
  | .hbm, ⟨118, _⟩ => ⟨S32x1x512, .f32⟩
  | .hbm, ⟨119, _⟩ => ⟨S32x2048x512, .f32⟩
  | .hbm, ⟨120, _⟩ => ⟨S32x2048x512, .f32⟩
  | .hbm, ⟨121, _⟩ => ⟨S32x2048x512, .f32⟩
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst : Ref sig .tc := ⟨.hbm, 44, rfl⟩
abbrev main_v26 : Ref sig .tc := ⟨.hbm, 45, rfl⟩
abbrev main_v27 : Ref sig .tc := ⟨.hbm, 46, rfl⟩
abbrev main_cst_0 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_1 : Ref sig .tc := ⟨.hbm, 53, rfl⟩
abbrev main_v33 : Ref sig .tc := ⟨.hbm, 54, rfl⟩
abbrev main_v34 : Ref sig .tc := ⟨.hbm, 55, rfl⟩
abbrev main_cst_2 : Ref sig .tc := ⟨.hbm, 56, rfl⟩
abbrev main_v35 : Ref sig .tc := ⟨.hbm, 57, rfl⟩
abbrev main_v36 : Ref sig .tc := ⟨.hbm, 58, rfl⟩
abbrev main_cst_3 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_call0_cst : Ref sig .tc := ⟨.hbm, 77, rfl⟩
abbrev main_call0_v0 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_4 : Ref sig .tc := ⟨.hbm, 92, rfl⟩
abbrev main_v67 : Ref sig .tc := ⟨.hbm, 93, rfl⟩
abbrev main_v68 : Ref sig .tc := ⟨.hbm, 94, rfl⟩
abbrev main_cst_5 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_6 : Ref sig .tc := ⟨.hbm, 101, rfl⟩
abbrev main_v74 : Ref sig .tc := ⟨.hbm, 102, rfl⟩
abbrev main_v75 : Ref sig .tc := ⟨.hbm, 103, rfl⟩
abbrev main_cst_7 : Ref sig .tc := ⟨.hbm, 104, rfl⟩
abbrev main_v76 : Ref sig .tc := ⟨.hbm, 105, rfl⟩
abbrev main_v77 : Ref sig .tc := ⟨.hbm, 106, rfl⟩
abbrev main_cst_8 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩

abbrev nD : Nat := 1
abbrev τ : Topo := Topo.v7x

variable {F : FTy → Type} [FloatOps F]

class Facts₀ : Prop where
  bcast_S32768_S1x32768_1 : S32768.BroadcastsInDim S1x32768 (![1] : Fin 1 → Fin S1x32768.rank)
  bcast_S1x32768_S32x32768_0_1 : S1x32768.BroadcastsInDim S32x32768 (![0, 1] : Fin 2 → Fin S32x32768.rank)
  shapeCasts_S32x32768_S32x64x512 : S32x32768.ShapeCasts S32x64x512
  bcast_S64_S1x64_1 : S64.BroadcastsInDim S1x64 (![1] : Fin 1 → Fin S1x64.rank)
  bcast_S1x64_S32x64_0_1 : S1x64.BroadcastsInDim S32x64 (![0, 1] : Fin 2 → Fin S32x64.rank)
  shapeCasts_S32x32768_S32x512x64 : S32x32768.ShapeCasts S32x512x64
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  reducesTo_S32x2048x512_S32x2048_d2 : S32x2048x512.ReducesTo [2] S32x2048
  h_S_ : 0 < S_.numel
  bcast_S32x2048_S32x2048x1_0_1 : S32x2048.BroadcastsInDim S32x2048x1 (![0, 1] : Fin 2 → Fin S32x2048x1.rank)
  bcast_S_S32x2048x1 : S_.BroadcastsInDim S32x2048x1 (![] : Fin 0 → Fin S32x2048x1.rank)
  bcast_S32x2048x1_S32x2048x512_0_1_2 : S32x2048x1.BroadcastsInDim S32x2048x512 (![0, 1, 2] : Fin 3 → Fin S32x2048x512.rank)
  bcast_S32x512_S32x1x512_0_2 : S32x512.BroadcastsInDim S32x1x512 (![0, 2] : Fin 2 → Fin S32x1x512.rank)
  bcast_S32x1x512_S32x2048x512_0_1_2 : S32x1x512.BroadcastsInDim S32x2048x512 (![0, 1, 2] : Fin 3 → Fin S32x2048x512.rank)
  bcast_S32x64_S32x1x64_0_2 : S32x64.BroadcastsInDim S32x1x64 (![0, 2] : Fin 2 → Fin S32x1x64.rank)
  bcast_S32x1x64_S32x2048x64_0_1_2 : S32x1x64.BroadcastsInDim S32x2048x64 (![0, 1, 2] : Fin 3 → Fin S32x2048x64.rank)
  bcast_S_S32x2048x64 : S_.BroadcastsInDim S32x2048x64 (![] : Fin 0 → Fin S32x2048x64.rank)
  dot_S32x64_S64x32768_S32x32768_1_0_0_1_n_n_wf : DotDims.WF S32x64 S64x32768 S32x32768 [1] [0] [0] [1] [] []
  dot_S32x64_S64x64_S32x64_1_0_0_1_n_n_wf : DotDims.WF S32x64 S64x64 S32x64 [1] [0] [0] [1] [] []
  dot_S32x64_S64x512_S32x512_1_0_0_1_n_n_wf : DotDims.WF S32x64 S64x512 S32x512 [1] [0] [0] [1] [] []
  dot_S32x2048x512_S32x64x512_S32x2048x64_2_2_1_1_0_0_wf : DotDims.WF S32x2048x512 S32x64x512 S32x2048x64 [2] [2] [1] [1] [0] [0]
  dot_S32x2048x64_S32x512x64_S32x2048x512_2_2_1_1_0_0_wf : DotDims.WF S32x2048x64 S32x512x64 S32x2048x512 [2] [2] [1] [1] [0] [0]

variable [Facts₀]

def dot_S32x64_S64x32768_S32x32768_1_0_0_1_n_n : DotDims S32x64 S64x32768 S32x32768 where
  lhsContracting := [1]
  rhsContracting := [0]
  lhsNonContracting := [0]
  rhsNonContracting := [1]
  lhsBatch := []
  rhsBatch := []
  wf := dot_S32x64_S64x32768_S32x32768_1_0_0_1_n_n_wf
def dot_S32x64_S64x64_S32x64_1_0_0_1_n_n : DotDims S32x64 S64x64 S32x64 where
  lhsContracting := [1]
  rhsContracting := [0]
  lhsNonContracting := [0]
  rhsNonContracting := [1]
  lhsBatch := []
  rhsBatch := []
  wf := dot_S32x64_S64x64_S32x64_1_0_0_1_n_n_wf
def dot_S32x64_S64x512_S32x512_1_0_0_1_n_n : DotDims S32x64 S64x512 S32x512 where
  lhsContracting := [1]
  rhsContracting := [0]
  lhsNonContracting := [0]
  rhsNonContracting := [1]
  lhsBatch := []
  rhsBatch := []
  wf := dot_S32x64_S64x512_S32x512_1_0_0_1_n_n_wf
def dot_S32x2048x512_S32x64x512_S32x2048x64_2_2_1_1_0_0 : DotDims S32x2048x512 S32x64x512 S32x2048x64 where
  lhsContracting := [2]
  rhsContracting := [2]
  lhsNonContracting := [1]
  rhsNonContracting := [1]
  lhsBatch := [0]
  rhsBatch := [0]
  wf := dot_S32x2048x512_S32x64x512_S32x2048x64_2_2_1_1_0_0_wf
def dot_S32x2048x64_S32x512x64_S32x2048x512_2_2_1_1_0_0 : DotDims S32x2048x64 S32x512x64 S32x2048x512 where
  lhsContracting := [2]
  rhsContracting := [2]
  lhsNonContracting := [1]
  rhsNonContracting := [1]
  lhsBatch := [0]
  rhsBatch := [0]
  wf := dot_S32x2048x64_S32x512x64_S32x2048x512_2_2_1_1_0_0_wf

class Facts : Prop extends Facts₀ where

variable [Facts]
-- ==== Proof.Spec.lean ====
/-
  The mathematics both programs compute, with no program in sight.

  One token row `x : Fin 512 → EReal` of sample `b` goes through: a layer normalisation with the sample's own scale and
  shift, a projection down to 64 channels, a rectifier, a projection back up to 512, a second layer normalisation, and
  the residual sum with `x`.  The two programs spell the normalisation differently: one multiplies the centred row by
  the reciprocal square root of the variance, the other divides it by the square root.  The variance here is a mean of
  squares plus a positive constant, so it is strictly positive on the extended reals whatever the row holds, and on
  `(0, ⊤]` the two spellings are one function: at `⊤` both give `0`, and at a positive real `r` both multiply by
  `(√r)⁻¹`.  No finiteness of the inputs is used anywhere.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-! ## The two float constants -/

/-- The row length as both programs write it: the pattern of `512.0`. -/
abbrev c512 : EReal := Ideal.ofBits .f32 0x44000000#32

/-- The variance's additive constant as both programs write it: the pattern nearest `1e-5`. -/
abbrev eps : EReal := Ideal.ofBits .f32 0x3727C5AC#32

/-- The pattern `0x44000000` denotes the real `512`. -/
theorem c512_eq : c512 = ((512 : ℝ) : EReal) := by
  simp [c512, Ideal.ofBits, Ideal.ieee, -EReal.coe_mul]; norm_num

/-- The pattern `0x3727C5AC` denotes a positive real (it is `10995116 / 2^40`). -/
theorem eps_pos : 0 < eps := by
  have h : eps = ((10995116 / 1099511627776 : ℝ) : EReal) := by
    simp [eps, Ideal.ofBits, Ideal.ieee, -EReal.coe_mul]; norm_num
  rw [h]
  exact EReal.coe_pos.2 (by norm_num)

/-! ## Reciprocal square root against division by the square root -/

/-- On `(0, ⊤]` multiplying by the reciprocal square root is dividing by the square root: at `⊤` both sides are
    `x · 0`, at a positive real `r` both are `x · (√r)⁻¹`. -/
theorem mul_rsqrt_eq_div_sqrt {v : EReal} (hv : 0 < v) (x : EReal) :
    x * Ideal.rsqrt v = Ideal.div x (Ideal.sqrt v) := by
  induction v with
  | bot => exact absurd hv (not_lt.2 bot_le)
  | coe r =>
    have hr : 0 < r := EReal.coe_pos.1 hv
    have hs : Real.sqrt r ≠ 0 := (Real.sqrt_pos.2 hr).ne'
    rw [Ideal.rsqrt_coe, Ideal.sqrt_coe, if_neg (not_lt.2 hr.le), if_neg hr.ne', if_neg (not_lt.2 hr.le),
      Ideal.div_coe hs, one_div]
  | top => rw [Ideal.rsqrt_top, Ideal.sqrt_top, Ideal.div, if_neg EReal.top_ne_zero, EReal.inv_top]

/-- A square is nonnegative on the extended reals, at the infinities too. -/
theorem mul_self_nonneg (a : EReal) : 0 ≤ a * a :=
  EReal.mul_nonneg_iff.2 ((le_total 0 a).imp (fun h => ⟨h, h⟩) (fun h => ⟨h, h⟩))

/-! ## One row -/

/-- The mean of a row: its sum divided by the row length. -/
def mean (r : Fin 512 → EReal) : EReal := Ideal.div (∑ k : Fin 512, r k) c512

/-- The variance of a row plus the constant: the mean of the squared centred entries, plus `eps`. -/
def var (r : Fin 512 → EReal) : EReal :=
  Ideal.div (∑ k : Fin 512, (r k - mean r) * (r k - mean r)) c512 + eps

/-- The variance term is strictly positive, whatever the row holds: a sum of squares is nonnegative, dividing by
    `512` keeps the sign, and `eps` is positive. -/
theorem var_pos (r : Fin 512 → EReal) : 0 < var r := by
  unfold var
  rw [add_comm]
  refine EReal.add_pos_of_pos_of_nonneg eps_pos ?_
  rw [c512_eq, Ideal.div_coe (by norm_num : (512 : ℝ) ≠ 0)]
  exact EReal.mul_nonneg (Finset.sum_nonneg fun k _ => mul_self_nonneg _) (EReal.coe_nonneg.2 (by norm_num))

/-- Layer normalisation with scale `w` and shift `b`, the centred row TIMES the reciprocal square root. -/
def lnMul (w b r : Fin 512 → EReal) (q : Fin 512) : EReal :=
  (r q - mean r) * Ideal.rsqrt (var r) * w q + b q

/-- Layer normalisation with scale `w` and shift `b`, the centred row DIVIDED BY the square root. -/
def lnDiv (w b r : Fin 512 → EReal) (q : Fin 512) : EReal :=
  Ideal.div (r q - mean r) (Ideal.sqrt (var r)) * w q + b q

theorem lnMul_eq_lnDiv (w b r : Fin 512 → EReal) (q : Fin 512) : lnMul w b r q = lnDiv w b r q := by
  unfold lnMul lnDiv
  rw [mul_rsqrt_eq_div_sqrt (var_pos r)]

/-- The projection down: channel `a` is the row against row `a` of the sample's `64 × 512` matrix, plus a bias. -/
def down (wd : Fin 64 → Fin 512 → EReal) (bd : Fin 64 → EReal) (z : Fin 512 → EReal) (a : Fin 64) : EReal :=
  (∑ d : Fin 512, z d * wd a d) + bd a

/-- The projection up: entry `d` is the 64 channels against row `d` of the sample's `512 × 64` matrix, plus a bias. -/
def up (wu : Fin 512 → Fin 64 → EReal) (bu : Fin 512 → EReal) (h : Fin 64 → EReal) (d : Fin 512) : EReal :=
  (∑ a : Fin 64, h a * wu d a) + bu d

/-- The whole row map, normalising by the reciprocal square root. -/
def rowMul (wd : Fin 64 → Fin 512 → EReal) (bd : Fin 64 → EReal) (wu : Fin 512 → Fin 64 → EReal)
    (bu pw pb qw qb x : Fin 512 → EReal) (q : Fin 512) : EReal :=
  lnMul qw qb (up wu bu fun a => max (down wd bd (lnMul pw pb x) a) 0) q + x q

/-- The whole row map, normalising by division. -/
def rowDiv (wd : Fin 64 → Fin 512 → EReal) (bd : Fin 64 → EReal) (wu : Fin 512 → Fin 64 → EReal)
    (bu pw pb qw qb x : Fin 512 → EReal) (q : Fin 512) : EReal :=
  lnDiv qw qb (up wu bu fun a => max (down wd bd (lnDiv pw pb x) a) 0) q + x q

theorem rowMul_eq_rowDiv (wd : Fin 64 → Fin 512 → EReal) (bd : Fin 64 → EReal) (wu : Fin 512 → Fin 64 → EReal)
    (bu pw pb qw qb x : Fin 512 → EReal) (q : Fin 512) :
    rowMul wd bd wu bu pw pb qw qb x q = rowDiv wd bd wu bu pw pb qw qb x q := by
  unfold rowMul rowDiv
  rw [lnMul_eq_lnDiv]
  have e : lnMul pw pb x = lnDiv pw pb x := funext fun k => lnMul_eq_lnDiv pw pb x k
  rw [e]

/-- The row map depends on its nine arguments only through their values. -/
theorem rowMul_congr {wd wd' : Fin 64 → Fin 512 → EReal} {bd bd' : Fin 64 → EReal} {wu wu' : Fin 512 → Fin 64 → EReal}
    {bu bu' pw pw' pb pb' qw qw' qb qb' x x' : Fin 512 → EReal}
    (h1 : ∀ a d, wd a d = wd' a d) (h2 : ∀ a, bd a = bd' a) (h3 : ∀ d a, wu d a = wu' d a) (h4 : ∀ d, bu d = bu' d)
    (h5 : ∀ d, pw d = pw' d) (h6 : ∀ d, pb d = pb' d) (h7 : ∀ d, qw d = qw' d) (h8 : ∀ d, qb d = qb' d)
    (h0 : ∀ k, x k = x' k) (q : Fin 512) :
    rowMul wd bd wu bu pw pb qw qb x q = rowMul wd' bd' wu' bu' pw' pb' qw' qb' x' q := by
  obtain rfl : wd = wd' := funext fun a => funext fun d => h1 a d
  obtain rfl : bd = bd' := funext h2
  obtain rfl : wu = wu' := funext fun d => funext fun a => h3 d a
  obtain rfl : bu = bu' := funext h4
  obtain rfl : pw = pw' := funext h5
  obtain rfl : pb = pb' := funext h6
  obtain rfl : qw = qw' := funext h7
  obtain rfl : qb = qb' := funext h8
  obtain rfl : x = x' := funext h0
  rfl

/-! ## The whole array -/

abbrev SX : Shape := ⟨3, ![32, 2048, 512]⟩
abbrev SWd : Shape := ⟨3, ![32, 64, 512]⟩
abbrev SWu : Shape := ⟨3, ![32, 512, 64]⟩
abbrev SB64 : Shape := ⟨2, ![32, 64]⟩
abbrev SB512 : Shape := ⟨2, ![32, 512]⟩

/-- Entry `(b, s, q)` of the result: the row map of sample `b`'s parameters on token row `(b, s)`, at `q`. -/
def resultAt (x : SX.Idx → EReal) (wd : SWd.Idx → EReal) (bd : SB64.Idx → EReal) (wu : SWu.Idx → EReal)
    (bu pw pb qw qb : SB512.Idx → EReal) (b : Fin 32) (s : Fin 2048) (q : Fin 512) : EReal :=
  rowMul (fun a d => wd (ix3 b a d)) (fun a => bd (ix2 b a)) (fun d a => wu (ix3 b d a)) (fun d => bu (ix2 b d))
    (fun d => pw (ix2 b d)) (fun d => pb (ix2 b d)) (fun d => qw (ix2 b d)) (fun d => qb (ix2 b d))
    (fun k => x (ix3 b s k)) q

/-- The result as one function of the token array and the eight per-sample parameter arrays. -/
def result (x : SX.Idx → EReal) (wd : SWd.Idx → EReal) (bd : SB64.Idx → EReal) (wu : SWu.Idx → EReal)
    (bu pw pb qw qb : SB512.Idx → EReal) : SX.Idx → EReal :=
  fun i => resultAt x wd bd wu bu pw pb qw qb (i 0) (i 1) (i 2)

theorem result_ix3 (x : SX.Idx → EReal) (wd : SWd.Idx → EReal) (bd : SB64.Idx → EReal) (wu : SWu.Idx → EReal)
    (bu pw pb qw qb : SB512.Idx → EReal) (b : Fin 32) (s : Fin 2048) (q : Fin 512) :
    result x wd bd wu bu pw pb qw qb (ix3 b s q) = resultAt x wd bd wu bu pw pb qw qb b s q := rfl

end Cert.Spec

end
-- ==== Proof.LibColumn.lean ====
/-
  Two layout facts about a column kept after a row reduction:
  a vector of `a` numbers seen as an `a × 1` column reads, at `(i, 0)`, the vector at `i`; and an `a × 1` column
  repeated across `b` columns reads, at `(p, c)`, the column's entry in row `p`.
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KernelBody.lean ====
/-
  The kernel body's arithmetic, read at an index.

  One grid point holds a block of 512 token rows of one sample, `x0 : [1, 512, 512]`, and that sample's eight parameter
  blocks.  The body's stored value at `(0, p, q)` depends on row `p` of the block only: it is the row map of
  `Spec.rowMul` applied to that row, at `q`.  The steps below read each vector operation of the body at an index: a
  row sum as a finite sum, a kept column and its repetition across the row as the column's entry, the two matrix
  products as sums over the contracted axis, a change of float format as the identity.
-/
import proofs.«121885_j51539607552027_1_alg».proof.Proof.Gen.KernelIdeal.Skeleton
import proofs.«121885_j51539607552027_1_alg».proof.Proof.Spec
import proofs.«121885_j51539607552027_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.LibColumn

/-! ## A row sum -/

/-- The sum over axis 1 of a `512 × 512` block, at row `p`, is the sum of that row's entries. -/
theorem rowsum_apply (src : FVec Ideal S512x512 .f32) (h : S512x512.Reduces [1] S512) (hφ : FKind.Formats .f32)
    (hacc : (0x00000000#32 : BitVec 32) = 0x00000000#32) (p : Fin 512) :
    multiReduction .add [1] S512 src 0x00000000#32 h hφ hacc (ix1 p) = ∑ k : Fin 512, src (ix2 p k) := by
  refine (Ideal.multiReduction_add_single src 0x00000000#32 h hφ hacc (ix1 p)).trans ?_
  refine Finset.sum_congr rfl fun k _ => congrArg src ?_
  funext a
  apply Fin.ext
  match a with
  | ⟨0, _⟩ => rfl
  | ⟨1, _⟩ => rfl

/-! ## The layer normalisation of a block -/

/-- The column of row means. -/
def meanCol (x : FVec Ideal S512x512 .f32) : FVec Ideal S512x1 .f32 :=
  divf (shapeCast S512x1 (multiReduction .add [1] S512 x 0x00000000#32 reduces_S512x512_S512 (.inl rfl) rfl) shapeCasts_S512_S512x1)
    (broadcast S512x1 (Scalar.ofBits .f32 0x44000000#32))

theorem meanCol_apply (x : FVec Ideal S512x512 .f32) (p : Fin 512) (u : Fin 1) :
    meanCol x (ix2 p u) = Spec.mean fun k => x (ix2 p k) := by
  show Ideal.div (shapeCast S512x1 (multiReduction .add [1] S512 x 0x00000000#32 reduces_S512x512_S512 (.inl rfl) rfl) shapeCasts_S512_S512x1 (ix2 p u))
    (Ideal.ofBits .f32 0x44000000#32) = _
  rw [shapeCast_a_a1_apply, rowsum_apply]
  rfl

/-- The block with each row's mean taken off. -/
def centred (x : FVec Ideal S512x512 .f32) : FVec Ideal S512x512 .f32 :=
  subf x (broadcastTo S512x512 (meanCol x) broadcasts_S512x1_S512x512)

theorem centred_apply (x : FVec Ideal S512x512 .f32) (p q : Fin 512) :
    centred x (ix2 p q) = x (ix2 p q) - Spec.mean fun k => x (ix2 p k) := by
  show x (ix2 p q) - broadcastTo S512x512 (meanCol x) broadcasts_S512x1_S512x512 (ix2 p q) = _
  rw [broadcastTo_a1_ab_apply, meanCol_apply]

/-- The column of row variances, the constant added. -/
def varCol (x : FVec Ideal S512x512 .f32) : FVec Ideal S512x1 .f32 :=
  addf (divf (shapeCast S512x1 (multiReduction .add [1] S512 (mulf (centred x) (centred x)) 0x00000000#32 reduces_S512x512_S512 (.inl rfl) rfl) shapeCasts_S512_S512x1)
      (broadcast S512x1 (Scalar.ofBits .f32 0x44000000#32)))
    (broadcast S512x1 (Scalar.ofBits .f32 0x3727C5AC#32))

theorem varCol_apply (x : FVec Ideal S512x512 .f32) (p : Fin 512) (u : Fin 1) :
    varCol x (ix2 p u) = Spec.var fun k => x (ix2 p k) := by
  show Ideal.div (shapeCast S512x1 (multiReduction .add [1] S512 (mulf (centred x) (centred x)) 0x00000000#32 reduces_S512x512_S512 (.inl rfl) rfl) shapeCasts_S512_S512x1 (ix2 p u))
    (Ideal.ofBits .f32 0x44000000#32) + Ideal.ofBits .f32 0x3727C5AC#32 = _
  rw [shapeCast_a_a1_apply, rowsum_apply]
  have e : ∀ k : Fin 512, mulf (centred x) (centred x) (ix2 p k)
      = (x (ix2 p k) - Spec.mean fun k => x (ix2 p k)) * (x (ix2 p k) - Spec.mean fun k => x (ix2 p k)) := fun k => by
    show centred x (ix2 p k) * centred x (ix2 p k) = _
    rw [centred_apply]
  rw [Finset.sum_congr rfl fun k _ => e k]
  rfl

/-- The normalised block: centred rows times the reciprocal square root of the variance column, scaled and shifted
    by one row of weights each. -/
def lnBlock (x : FVec Ideal S512x512 .f32) (w b : FVec Ideal S1x512 .f32) : FVec Ideal S512x512 .f32 :=
  addf (mulf (mulf (centred x) (broadcastTo S512x512 (rsqrt (varCol x)) broadcasts_S512x1_S512x512))
      (broadcastTo S512x512 w broadcasts_S1x512_S512x512))
    (broadcastTo S512x512 b broadcasts_S1x512_S512x512)

theorem lnBlock_apply (x : FVec Ideal S512x512 .f32) (w b : FVec Ideal S1x512 .f32) (p q : Fin 512) :
    lnBlock x w b (ix2 p q)
      = Spec.lnMul (fun d => w (ix2 (0 : Fin 1) d)) (fun d => b (ix2 (0 : Fin 1) d)) (fun k => x (ix2 p k)) q := by
  show centred x (ix2 p q) * broadcastTo S512x512 (rsqrt (varCol x)) broadcasts_S512x1_S512x512 (ix2 p q)
      * broadcastTo S512x512 w broadcasts_S1x512_S512x512 (ix2 p q)
    + broadcastTo S512x512 b broadcasts_S1x512_S512x512 (ix2 p q) = _
  rw [centred_apply, broadcastTo_a1_ab_apply, broadcastTo_1b_ab_apply, broadcastTo_1b_ab_apply]
  show _ * Ideal.rsqrt (varCol x (ix2 p (0 : Fin 1))) * _ + _ = _
  rw [varCol_apply]
  rfl

/-! ## The two matrix products -/

theorem down_lhs_0 (i : S512x64.Idx) (q : dot_S512x512_S64x512_S512x64_1_1_0_0_n_n.contr.Idx) :
    (dot_S512x512_S64x512_S512x64_1_1_0_0_n_n.lhsIdx i q 0).val = (i 0).val := by
  unfold DotDims.lhsIdx
  rw [dif_neg (show ¬(0 : Fin S512x512.rank) ∈ dot_S512x512_S64x512_S512x64_1_1_0_0_n_n.lhsBatch by decide), dif_pos (show (0 : Fin S512x512.rank) ∈ dot_S512x512_S64x512_S512x64_1_1_0_0_n_n.lhsNonContracting by decide)]
  rfl
theorem down_lhs_1 (i : S512x64.Idx) (q : dot_S512x512_S64x512_S512x64_1_1_0_0_n_n.contr.Idx) :
    (dot_S512x512_S64x512_S512x64_1_1_0_0_n_n.lhsIdx i q 1).val = (q ⟨0, by decide⟩).val :=
  dot_S512x512_S64x512_S512x64_1_1_0_0_n_n.lhsIdx_val_of_single rfl i q
theorem down_rhs_0 (i : S512x64.Idx) (q : dot_S512x512_S64x512_S512x64_1_1_0_0_n_n.contr.Idx) :
    (dot_S512x512_S64x512_S512x64_1_1_0_0_n_n.rhsIdx i q 0).val = (i 1).val := by
  unfold DotDims.rhsIdx
  rw [dif_neg (show ¬(0 : Fin S64x512.rank) ∈ dot_S512x512_S64x512_S512x64_1_1_0_0_n_n.rhsBatch by decide), dif_pos (show (0 : Fin S64x512.rank) ∈ dot_S512x512_S64x512_S512x64_1_1_0_0_n_n.rhsNonContracting by decide)]
  rfl
theorem down_rhs_1 (i : S512x64.Idx) (q : dot_S512x512_S64x512_S512x64_1_1_0_0_n_n.contr.Idx) :
    (dot_S512x512_S64x512_S512x64_1_1_0_0_n_n.rhsIdx i q 1).val = (q ⟨0, by decide⟩).val :=
  dot_S512x512_S64x512_S512x64_1_1_0_0_n_n.rhsIdx_val_of_single rfl i q

/-- The product down, into a zero accumulator: entry `(p, a)` is row `p` of the left against row `a` of the right. -/
theorem matmul_down_apply (L : FVec Ideal S512x512 .bf16) (R : FVec Ideal S64x512 .bf16) (p : Fin 512) (a : Fin 64) :
    matmul dot_S512x512_S64x512_S512x64_1_1_0_0_n_n none L R (constant S512x64 .f32 0x00000000#32) (ix2 p a)
      = ∑ d : Fin 512, L (ix2 p d) * R (ix2 a d) := by
  simp only [matmul]
  rw [Ideal.matmul_constant_zero_apply, ← Equiv.sum_comp (contrEquiv1 dot_S512x512_S64x512_S512x64_1_1_0_0_n_n 512 rfl rfl).symm]
  refine Finset.sum_congr rfl fun k _ => ?_
  have hk := contrEquiv1_symm_val dot_S512x512_S64x512_S512x64_1_1_0_0_n_n 512 rfl rfl k
  have el : dot_S512x512_S64x512_S512x64_1_1_0_0_n_n.lhsIdx (ix2 p a) ((contrEquiv1 dot_S512x512_S64x512_S512x64_1_1_0_0_n_n 512 rfl rfl).symm k) = ix2 p k := funext fun c => Fin.ext (by
    match c with
    | ⟨0, _⟩ => exact down_lhs_0 _ _
    | ⟨1, _⟩ => exact (down_lhs_1 _ _).trans hk)
  have er : dot_S512x512_S64x512_S512x64_1_1_0_0_n_n.rhsIdx (ix2 p a) ((contrEquiv1 dot_S512x512_S64x512_S512x64_1_1_0_0_n_n 512 rfl rfl).symm k) = ix2 a k := funext fun c => Fin.ext (by
    match c with
    | ⟨0, _⟩ => exact down_rhs_0 _ _
    | ⟨1, _⟩ => exact (down_rhs_1 _ _).trans hk)
  rw [el, er]

theorem up_lhs_0 (i : S512x512.Idx) (q : dot_S512x64_S512x64_S512x512_1_1_0_0_n_n.contr.Idx) :
    (dot_S512x64_S512x64_S512x512_1_1_0_0_n_n.lhsIdx i q 0).val = (i 0).val := by
  unfold DotDims.lhsIdx
  rw [dif_neg (show ¬(0 : Fin S512x64.rank) ∈ dot_S512x64_S512x64_S512x512_1_1_0_0_n_n.lhsBatch by decide), dif_pos (show (0 : Fin S512x64.rank) ∈ dot_S512x64_S512x64_S512x512_1_1_0_0_n_n.lhsNonContracting by decide)]
  rfl
theorem up_lhs_1 (i : S512x512.Idx) (q : dot_S512x64_S512x64_S512x512_1_1_0_0_n_n.contr.Idx) :
    (dot_S512x64_S512x64_S512x512_1_1_0_0_n_n.lhsIdx i q 1).val = (q ⟨0, by decide⟩).val :=
  dot_S512x64_S512x64_S512x512_1_1_0_0_n_n.lhsIdx_val_of_single rfl i q
theorem up_rhs_0 (i : S512x512.Idx) (q : dot_S512x64_S512x64_S512x512_1_1_0_0_n_n.contr.Idx) :
    (dot_S512x64_S512x64_S512x512_1_1_0_0_n_n.rhsIdx i q 0).val = (i 1).val := by
  unfold DotDims.rhsIdx
  rw [dif_neg (show ¬(0 : Fin S512x64.rank) ∈ dot_S512x64_S512x64_S512x512_1_1_0_0_n_n.rhsBatch by decide), dif_pos (show (0 : Fin S512x64.rank) ∈ dot_S512x64_S512x64_S512x512_1_1_0_0_n_n.rhsNonContracting by decide)]
  rfl
theorem up_rhs_1 (i : S512x512.Idx) (q : dot_S512x64_S512x64_S512x512_1_1_0_0_n_n.contr.Idx) :
    (dot_S512x64_S512x64_S512x512_1_1_0_0_n_n.rhsIdx i q 1).val = (q ⟨0, by decide⟩).val :=
  dot_S512x64_S512x64_S512x512_1_1_0_0_n_n.rhsIdx_val_of_single rfl i q

/-- The product up, into a zero accumulator: entry `(p, d)` is row `p` of the left against row `d` of the right. -/
theorem matmul_up_apply (L : FVec Ideal S512x64 .bf16) (R : FVec Ideal S512x64 .bf16) (p d : Fin 512) :
    matmul dot_S512x64_S512x64_S512x512_1_1_0_0_n_n none L R (constant S512x512 .f32 0x00000000#32) (ix2 p d)
      = ∑ a : Fin 64, L (ix2 p a) * R (ix2 d a) := by
  simp only [matmul]
  rw [Ideal.matmul_constant_zero_apply, ← Equiv.sum_comp (contrEquiv1 dot_S512x64_S512x64_S512x512_1_1_0_0_n_n 64 rfl rfl).symm]
  refine Finset.sum_congr rfl fun k _ => ?_
  have hk := contrEquiv1_symm_val dot_S512x64_S512x64_S512x512_1_1_0_0_n_n 64 rfl rfl k
  have el : dot_S512x64_S512x64_S512x512_1_1_0_0_n_n.lhsIdx (ix2 p d) ((contrEquiv1 dot_S512x64_S512x64_S512x512_1_1_0_0_n_n 64 rfl rfl).symm k) = ix2 p k := funext fun c => Fin.ext (by
    match c with
    | ⟨0, _⟩ => exact up_lhs_0 _ _
    | ⟨1, _⟩ => exact (up_lhs_1 _ _).trans hk)
  have er : dot_S512x64_S512x64_S512x512_1_1_0_0_n_n.rhsIdx (ix2 p d) ((contrEquiv1 dot_S512x64_S512x64_S512x512_1_1_0_0_n_n 64 rfl rfl).symm k) = ix2 d k := funext fun c => Fin.ext (by
    match c with
    | ⟨0, _⟩ => exact up_rhs_0 _ _
    | ⟨1, _⟩ => exact (up_rhs_1 _ _).trans hk)
  rw [el, er]

/-! ## The body's payloads -/

/-- The token block with its unit axis dropped, at `(p, q)`. -/
theorem pay1_apply (x0 : Vec Ideal S1x512x512 .f32) (p q : Fin 512) :
    k0_pay1 x0 (ix2 p q) = x0 (ix3 (0 : Fin 1) p q) :=
  shapeCast_1ab_ab_apply x0 shapeCasts_S1x512x512_S512x512 p q

/-- The body's first stage as one term: the first normalisation, the product down and its bias. -/
theorem pay2_eq (x0 : Vec Ideal S1x512x512 .f32) (x5 x6 : Vec Ideal S1x1x512 .f32) (x1 : Vec Ideal S1x64x512 .f32)
    (x2 : Vec Ideal S1x1x64 .f32) :
    k0_pay2 x0 x5 x6 x1 x2
      = addf (matmul dot_S512x512_S64x512_S512x64_1_1_0_0_n_n none
            (truncf .bf16 (lnBlock (k0_pay1 x0) (shapeCast S1x512 x5 shapeCasts_S1x1x512_S1x512) (shapeCast S1x512 x6 shapeCasts_S1x1x512_S1x512)) bitsLt_bf16_f32)
            (truncf .bf16 (shapeCast S64x512 x1 shapeCasts_S1x64x512_S64x512) bitsLt_bf16_f32)
            (constant S512x64 .f32 0x00000000#32))
          (broadcastTo S512x64 (shapeCast S1x64 x2 shapeCasts_S1x1x64_S1x64) broadcasts_S1x64_S512x64) := rfl

/-- The first stage at `(p, a)`: channel `a` of the projection down of the normalised row `p`. -/
theorem pay2_apply (x0 : Vec Ideal S1x512x512 .f32) (x5 x6 : Vec Ideal S1x1x512 .f32) (x1 : Vec Ideal S1x64x512 .f32)
    (x2 : Vec Ideal S1x1x64 .f32) (p : Fin 512) (a : Fin 64) :
    k0_pay2 x0 x5 x6 x1 x2 (ix2 p a)
      = Spec.down (fun a d => x1 (ix3 (0 : Fin 1) a d)) (fun a => x2 (ix3 (0 : Fin 1) (0 : Fin 1) a))
          (Spec.lnMul (fun d => x5 (ix3 (0 : Fin 1) (0 : Fin 1) d)) (fun d => x6 (ix3 (0 : Fin 1) (0 : Fin 1) d))
            (fun k => x0 (ix3 (0 : Fin 1) p k))) a := by
  rw [pay2_eq, addf_apply]
  rw [matmul_down_apply, broadcastTo_1b_ab_apply, shapeCast_1ab_ab_apply]
  have e : ∀ d : Fin 512,
      (truncf .bf16 (lnBlock (k0_pay1 x0) (shapeCast S1x512 x5 shapeCasts_S1x1x512_S1x512) (shapeCast S1x512 x6 shapeCasts_S1x1x512_S1x512)) bitsLt_bf16_f32 : FVec Ideal S512x512 .bf16) (ix2 p d)
        * (truncf .bf16 (shapeCast S64x512 x1 shapeCasts_S1x64x512_S64x512) bitsLt_bf16_f32 : FVec Ideal S64x512 .bf16) (ix2 a d)
      = Spec.lnMul (fun d => x5 (ix3 (0 : Fin 1) (0 : Fin 1) d)) (fun d => x6 (ix3 (0 : Fin 1) (0 : Fin 1) d))
          (fun k => x0 (ix3 (0 : Fin 1) p k)) d * x1 (ix3 (0 : Fin 1) a d) := fun d => by
    show lnBlock (k0_pay1 x0) (shapeCast S1x512 x5 shapeCasts_S1x1x512_S1x512) (shapeCast S1x512 x6 shapeCasts_S1x1x512_S1x512) (ix2 p d)
      * shapeCast S64x512 x1 shapeCasts_S1x64x512_S64x512 (ix2 a d) = _
    rw [lnBlock_apply, shapeCast_1ab_ab_apply]
    simp only [shapeCast_1ab_ab_apply, pay1_apply]
  rw [Finset.sum_congr rfl fun d _ => e d]
  rfl

/-- The body's second stage as one term: the rectifier, the product up and its bias, the second normalisation,
    the residual sum, and the unit axis put back. -/
theorem pay4_eq (v1 : FVec Ideal S512x512 .f32) (v34 v35 : FVec Ideal S512x64 .f32) (x3 : Vec Ideal S1x512x64 .f32)
    (x4 x7 x8 : Vec Ideal S1x1x512 .f32) :
    k0_pay4 v1 v34 v35 x3 x4 x7 x8
      = shapeCast S1x512x512
          (addf (lnBlock
              (addf (matmul dot_S512x64_S512x64_S512x512_1_1_0_0_n_n none
                  (truncf .bf16 (maximumf v34 v35) bitsLt_bf16_f32)
                  (truncf .bf16 (shapeCast S512x64 x3 shapeCasts_S1x512x64_S512x64) bitsLt_bf16_f32)
                  (constant S512x512 .f32 0x00000000#32))
                (broadcastTo S512x512 (shapeCast S1x512 x4 shapeCasts_S1x1x512_S1x512) broadcasts_S1x512_S512x512))
              (shapeCast S1x512 x7 shapeCasts_S1x1x512_S1x512) (shapeCast S1x512 x8 shapeCasts_S1x1x512_S1x512))
            v1)
          shapeCasts_S512x512_S1x512x512 := rfl

/-- The second stage's product up with its bias, at `(p, d)`, from the first stage's rows. -/
theorem upBlock_apply (v34 v35 : FVec Ideal S512x64 .f32) (x3 : Vec Ideal S1x512x64 .f32) (x4 : Vec Ideal S1x1x512 .f32)
    (p d : Fin 512) :
    addf (matmul dot_S512x64_S512x64_S512x512_1_1_0_0_n_n none
        (truncf .bf16 (maximumf v34 v35) bitsLt_bf16_f32)
        (truncf .bf16 (shapeCast S512x64 x3 shapeCasts_S1x512x64_S512x64) bitsLt_bf16_f32)
        (constant S512x512 .f32 0x00000000#32))
      (broadcastTo S512x512 (shapeCast S1x512 x4 shapeCasts_S1x1x512_S1x512) broadcasts_S1x512_S512x512) (ix2 p d)
      = Spec.up (fun d a => x3 (ix3 (0 : Fin 1) d a)) (fun d => x4 (ix3 (0 : Fin 1) (0 : Fin 1) d))
          (fun a => max (v34 (ix2 p a)) (v35 (ix2 p a))) d := by
  rw [addf_apply]
  rw [matmul_up_apply, broadcastTo_1b_ab_apply, shapeCast_1ab_ab_apply]
  have e : ∀ a : Fin 64,
      (truncf .bf16 (maximumf v34 v35) bitsLt_bf16_f32 : FVec Ideal S512x64 .bf16) (ix2 p a)
        * (truncf .bf16 (shapeCast S512x64 x3 shapeCasts_S1x512x64_S512x64) bitsLt_bf16_f32 : FVec Ideal S512x64 .bf16) (ix2 d a)
      = max (v34 (ix2 p a)) (v35 (ix2 p a)) * x3 (ix3 (0 : Fin 1) d a) := fun a => by
    show max (v34 (ix2 p a)) (v35 (ix2 p a)) * shapeCast S512x64 x3 shapeCasts_S1x512x64_S512x64 (ix2 d a) = _
    rw [shapeCast_1ab_ab_apply]
  rw [Finset.sum_congr rfl fun a _ => e a]
  rfl

/-- WHAT THE BODY STORES at `(u, p, q)`: the row map of the sample's parameter blocks on row `p` of the token
    block, at `q`. -/
theorem stored_apply (x0 : Vec Ideal S1x512x512 .f32) (x1 : Vec Ideal S1x64x512 .f32) (x2 : Vec Ideal S1x1x64 .f32)
    (x3 : Vec Ideal S1x512x64 .f32) (x4 x5 x6 x7 x8 : Vec Ideal S1x1x512 .f32) (u : Fin 1) (p q : Fin 512) :
    k0_pay4 (k0_pay1 x0) (k0_pay2 x0 x5 x6 x1 x2) (k0_pay3 (F := Ideal)) x3 x4 x7 x8 (ix3 u p q)
      = Spec.rowMul (fun a d => x1 (ix3 (0 : Fin 1) a d)) (fun a => x2 (ix3 (0 : Fin 1) (0 : Fin 1) a))
          (fun d a => x3 (ix3 (0 : Fin 1) d a)) (fun d => x4 (ix3 (0 : Fin 1) (0 : Fin 1) d))
          (fun d => x5 (ix3 (0 : Fin 1) (0 : Fin 1) d)) (fun d => x6 (ix3 (0 : Fin 1) (0 : Fin 1) d))
          (fun d => x7 (ix3 (0 : Fin 1) (0 : Fin 1) d)) (fun d => x8 (ix3 (0 : Fin 1) (0 : Fin 1) d))
          (fun k => x0 (ix3 (0 : Fin 1) p k)) q := by
  rw [pay4_eq, shapeCast_ab_1ab_apply]
  show lnBlock _ (shapeCast S1x512 x7 shapeCasts_S1x1x512_S1x512) (shapeCast S1x512 x8 shapeCasts_S1x1x512_S1x512) (ix2 p q)
    + k0_pay1 x0 (ix2 p q) = _
  rw [lnBlock_apply, pay1_apply]
  simp only [upBlock_apply, pay2_apply, shapeCast_1ab_ab_apply]
  have z : ∀ a : Fin 64, (k0_pay3 (F := Ideal)) (ix2 p a) = 0 := fun a => Ideal.ofBits_zero_f32
  simp only [z]
  rfl

end Cert.KernelIdeal.Body

end
-- ==== Proof.KernelWhole.lean ====
/-
  From blocks to the whole array.

  The grid has `32 × 4` points; point `(b, j)` holds token rows `512 j … 512 j + 511` of sample `b` and that sample's
  eight parameter blocks, and writes back the same rows of the result.  So each entry `(b, s, q)` of the result array is
  written exactly once, by point `(b, s / 512)`, and what is written there is the row map of sample `b`'s parameters on
  token row `(b, s)`, at `q`: the array after the run is `Spec.result` of the token array and the eight parameter
  arrays as the region finds them (three of them with their unit middle axis dropped).
-/
import proofs.«121885_j51539607552027_1_alg».proof.Proof.Gen.KernelIdeal.Value
import proofs.«121885_j51539607552027_1_alg».proof.Proof.KernelBody
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- A `[32, 1, n]` array with its unit middle axis dropped: entry `(b, d)` is entry `(b, 0, d)`. -/
def squeeze {n : Nat} (y : (⟨3, ![32, 1, n]⟩ : Shape).Idx → EReal) : (⟨2, ![32, n]⟩ : Shape).Idx → EReal :=
  fun i => y (ix3 (⟨(i 0).val, (i 0).isLt⟩ : Fin 32) (0 : Fin 1) (⟨(i 1).val, (i 1).isLt⟩ : Fin n))

theorem squeeze_ix2 {n : Nat} (y : (⟨3, ![32, 1, n]⟩ : Shape).Idx → EReal) (b : Fin 32) (d : Fin n) :
    squeeze y (ix2 b d) = y (ix3 b (0 : Fin 1) d) := rfl

/-- The result array as the region leaves it: `Spec.result` of the arrays the region finds. -/
def whole (c : Dev nD) : S32x2048x512.Idx → EReal :=
  Spec.result (V m c main_arg1 : S32x2048x512.Idx → EReal) (V m c main_v4 : S32x64x512.Idx → EReal)
    (squeeze (V m c main_v9 : S32x1x64.Idx → EReal)) (V m c main_v14 : S32x512x64.Idx → EReal)
    (squeeze (V m c main_v19 : S32x1x512.Idx → EReal)) (squeeze (V m c main_v24 : S32x1x512.Idx → EReal))
    (squeeze (V m c main_v29 : S32x1x512.Idx → EReal)) (squeeze (V m c main_v34 : S32x1x512.Idx → EReal))
    (squeeze (V m c main_v39 : S32x1x512.Idx → EReal))

/-! ## The index maps, decided over the 128 grid points -/

/-- The output window's block index is `(b, j, 0)` with `b ≤ 31`, `j ≤ 3`. -/
theorem idx9 : ∀ t : Fin cfg0.N, win0_9.index t (0 : Fin 3) ≤ 31 ∧ win0_9.index t (1 : Fin 3) ≤ 3
    ∧ win0_9.index t (2 : Fin 3) = 0 :=
  (by decide +kernel : ∀ t : Fin grid0.N, _)

/-- The token window moves with the output window. -/
theorem idx0 : ∀ t : Fin cfg0.N, win0_0.index t (0 : Fin 3) = win0_9.index t (0 : Fin 3)
    ∧ win0_0.index t (1 : Fin 3) = win0_9.index t (1 : Fin 3) ∧ win0_0.index t (2 : Fin 3) = 0 :=
  (by decide +kernel : ∀ t : Fin grid0.N, _)

/-- Each parameter window follows the sample and stays at block `0` on its other axes. -/
theorem idx1 : ∀ t : Fin cfg0.N, win0_1.index t (0 : Fin 3) = win0_9.index t (0 : Fin 3)
    ∧ win0_1.index t (1 : Fin 3) = 0 ∧ win0_1.index t (2 : Fin 3) = 0 :=
  (by decide +kernel : ∀ t : Fin grid0.N, _)
theorem idx2 : ∀ t : Fin cfg0.N, win0_2.index t (0 : Fin 3) = win0_9.index t (0 : Fin 3)
    ∧ win0_2.index t (1 : Fin 3) = 0 ∧ win0_2.index t (2 : Fin 3) = 0 :=
  (by decide +kernel : ∀ t : Fin grid0.N, _)
theorem idx3 : ∀ t : Fin cfg0.N, win0_3.index t (0 : Fin 3) = win0_9.index t (0 : Fin 3)
    ∧ win0_3.index t (1 : Fin 3) = 0 ∧ win0_3.index t (2 : Fin 3) = 0 :=
  (by decide +kernel : ∀ t : Fin grid0.N, _)
theorem idx4 : ∀ t : Fin cfg0.N, win0_4.index t (0 : Fin 3) = win0_9.index t (0 : Fin 3)
    ∧ win0_4.index t (1 : Fin 3) = 0 ∧ win0_4.index t (2 : Fin 3) = 0 :=
  (by decide +kernel : ∀ t : Fin grid0.N, _)
theorem idx5 : ∀ t : Fin cfg0.N, win0_5.index t (0 : Fin 3) = win0_9.index t (0 : Fin 3)
    ∧ win0_5.index t (1 : Fin 3) = 0 ∧ win0_5.index t (2 : Fin 3) = 0 :=
  (by decide +kernel : ∀ t : Fin grid0.N, _)
theorem idx6 : ∀ t : Fin cfg0.N, win0_6.index t (0 : Fin 3) = win0_9.index t (0 : Fin 3)
    ∧ win0_6.index t (1 : Fin 3) = 0 ∧ win0_6.index t (2 : Fin 3) = 0 :=
  (by decide +kernel : ∀ t : Fin grid0.N, _)
theorem idx7 : ∀ t : Fin cfg0.N, win0_7.index t (0 : Fin 3) = win0_9.index t (0 : Fin 3)
    ∧ win0_7.index t (1 : Fin 3) = 0 ∧ win0_7.index t (2 : Fin 3) = 0 :=
  (by decide +kernel : ∀ t : Fin grid0.N, _)
theorem idx8 : ∀ t : Fin cfg0.N, win0_8.index t (0 : Fin 3) = win0_9.index t (0 : Fin 3)
    ∧ win0_8.index t (1 : Fin 3) = 0 ∧ win0_8.index t (2 : Fin 3) = 0 :=
  (by decide +kernel : ∀ t : Fin grid0.N, _)

/-- Every block index `(b, j, 0)` is some point's. -/
theorem idx_onto : ∀ (q0 : Fin 32) (q1 : Fin 4), ∃ t : Fin cfg0.N, win0_9.index t = ![q0.val, q1.val, 0] :=
  (by decide +kernel : ∀ (q0 : Fin 32) (q1 : Fin 4), ∃ t : Fin grid0.N, win0_9.index t = ![q0.val, q1.val, 0])

/-! ## Each window's block, read off its array -/

/-- Row `p` of the token block at a point is token row `(b, 512 j + p)` of the array. -/
theorem blk0_apply (c : Dev nD) (t : Fin cfg0.N) (b : Fin 32) (s : Fin 2048) (p k : Fin 512)
    (hb : b.val = win0_9.index t (0 : Fin 3)) (hs : s.val = win0_9.index t (1 : Fin 3) * 512 + p.val) :
    (iblk m c 0 t : Vec Ideal S1x512x512 .f32) (ix3 (0 : Fin 1) p k)
      = (V m c main_arg1 : S32x2048x512.Idx → EReal) (ix3 b s k) := by
  obtain ⟨e0, e1, e2⟩ := idx0 t
  unfold iblk
  rw [View.read_apply]
  show (V m c main_arg1 : S32x2048x512.Idx → EReal) _ = _
  refine congrArg _ (funext fun a => Fin.ext ?_)
  match a with
  | ⟨0, _⟩ => show win0_0.index t (0 : Fin 3) * 1 + 1 * 0 = b.val; omega
  | ⟨1, _⟩ => show win0_0.index t (1 : Fin 3) * 512 + 1 * p.val = s.val; omega
  | ⟨2, _⟩ => show win0_0.index t (2 : Fin 3) * 512 + 1 * k.val = k.val; omega

/-- The down-projection block at a point is sample `b`'s `64 × 512` matrix. -/
theorem blk1_apply (c : Dev nD) (t : Fin cfg0.N) (b : Fin 32) (a : Fin 64) (d : Fin 512)
    (hb : b.val = win0_9.index t (0 : Fin 3)) :
    (iblk m c 1 t : Vec Ideal S1x64x512 .f32) (ix3 (0 : Fin 1) a d)
      = (V m c main_v4 : S32x64x512.Idx → EReal) (ix3 b a d) := by
  obtain ⟨e0, e1, e2⟩ := idx1 t
  unfold iblk
  rw [View.read_apply]
  show (V m c main_v4 : S32x64x512.Idx → EReal) _ = _
  refine congrArg _ (funext fun ax => Fin.ext ?_)
  match ax with
  | ⟨0, _⟩ => show win0_1.index t (0 : Fin 3) * 1 + 1 * 0 = b.val; omega
  | ⟨1, _⟩ => show win0_1.index t (1 : Fin 3) * 64 + 1 * a.val = a.val; omega
  | ⟨2, _⟩ => show win0_1.index t (2 : Fin 3) * 512 + 1 * d.val = d.val; omega

/-- The down-projection bias block at a point is sample `b`'s 64 biases. -/
theorem blk2_apply (c : Dev nD) (t : Fin cfg0.N) (b : Fin 32) (a : Fin 64) (hb : b.val = win0_9.index t (0 : Fin 3)) :
    (iblk m c 2 t : Vec Ideal S1x1x64 .f32) (ix3 (0 : Fin 1) (0 : Fin 1) a)
      = squeeze (V m c main_v9 : S32x1x64.Idx → EReal) (ix2 b a) := by
  obtain ⟨e0, e1, e2⟩ := idx2 t
  unfold iblk
  rw [View.read_apply]
  show (V m c main_v9 : S32x1x64.Idx → EReal) _ = (V m c main_v9 : S32x1x64.Idx → EReal) (ix3 b (0 : Fin 1) a)
  refine congrArg _ (funext fun ax => Fin.ext ?_)
  match ax with
  | ⟨0, _⟩ => show win0_2.index t (0 : Fin 3) * 1 + 1 * 0 = b.val; omega
  | ⟨1, _⟩ => show win0_2.index t (1 : Fin 3) * 1 + 1 * 0 = 0; omega
  | ⟨2, _⟩ => show win0_2.index t (2 : Fin 3) * 64 + 1 * a.val = a.val; omega

/-- The up-projection block at a point is sample `b`'s `512 × 64` matrix. -/
theorem blk3_apply (c : Dev nD) (t : Fin cfg0.N) (b : Fin 32) (d : Fin 512) (a : Fin 64)
    (hb : b.val = win0_9.index t (0 : Fin 3)) :
    (iblk m c 3 t : Vec Ideal S1x512x64 .f32) (ix3 (0 : Fin 1) d a)
      = (V m c main_v14 : S32x512x64.Idx → EReal) (ix3 b d a) := by
  obtain ⟨e0, e1, e2⟩ := idx3 t
  unfold iblk
  rw [View.read_apply]
  show (V m c main_v14 : S32x512x64.Idx → EReal) _ = _
  refine congrArg _ (funext fun ax => Fin.ext ?_)
  match ax with
  | ⟨0, _⟩ => show win0_3.index t (0 : Fin 3) * 1 + 1 * 0 = b.val; omega
  | ⟨1, _⟩ => show win0_3.index t (1 : Fin 3) * 512 + 1 * d.val = d.val; omega
  | ⟨2, _⟩ => show win0_3.index t (2 : Fin 3) * 64 + 1 * a.val = a.val; omega

/-- The up-projection bias block at a point is sample `b`'s 512 biases. -/
theorem blk4_apply (c : Dev nD) (t : Fin cfg0.N) (b : Fin 32) (d : Fin 512) (hb : b.val = win0_9.index t (0 : Fin 3)) :
    (iblk m c 4 t : Vec Ideal S1x1x512 .f32) (ix3 (0 : Fin 1) (0 : Fin 1) d)
      = squeeze (V m c main_v19 : S32x1x512.Idx → EReal) (ix2 b d) := by
  obtain ⟨e0, e1, e2⟩ := idx4 t
  unfold iblk
  rw [View.read_apply]
  show (V m c main_v19 : S32x1x512.Idx → EReal) _ = (V m c main_v19 : S32x1x512.Idx → EReal) (ix3 b (0 : Fin 1) d)
  refine congrArg _ (funext fun ax => Fin.ext ?_)
  match ax with
  | ⟨0, _⟩ => show win0_4.index t (0 : Fin 3) * 1 + 1 * 0 = b.val; omega
  | ⟨1, _⟩ => show win0_4.index t (1 : Fin 3) * 1 + 1 * 0 = 0; omega
  | ⟨2, _⟩ => show win0_4.index t (2 : Fin 3) * 512 + 1 * d.val = d.val; omega

/-- The first normalisation's scale block at a point is sample `b`'s 512 scales. -/
theorem blk5_apply (c : Dev nD) (t : Fin cfg0.N) (b : Fin 32) (d : Fin 512) (hb : b.val = win0_9.index t (0 : Fin 3)) :
    (iblk m c 5 t : Vec Ideal S1x1x512 .f32) (ix3 (0 : Fin 1) (0 : Fin 1) d)
      = squeeze (V m c main_v24 : S32x1x512.Idx → EReal) (ix2 b d) := by
  obtain ⟨e0, e1, e2⟩ := idx5 t
  unfold iblk
  rw [View.read_apply]
  show (V m c main_v24 : S32x1x512.Idx → EReal) _ = (V m c main_v24 : S32x1x512.Idx → EReal) (ix3 b (0 : Fin 1) d)
  refine congrArg _ (funext fun ax => Fin.ext ?_)
  match ax with
  | ⟨0, _⟩ => show win0_5.index t (0 : Fin 3) * 1 + 1 * 0 = b.val; omega
  | ⟨1, _⟩ => show win0_5.index t (1 : Fin 3) * 1 + 1 * 0 = 0; omega
  | ⟨2, _⟩ => show win0_5.index t (2 : Fin 3) * 512 + 1 * d.val = d.val; omega

/-- The first normalisation's shift block at a point is sample `b`'s 512 shifts. -/
theorem blk6_apply (c : Dev nD) (t : Fin cfg0.N) (b : Fin 32) (d : Fin 512) (hb : b.val = win0_9.index t (0 : Fin 3)) :
    (iblk m c 6 t : Vec Ideal S1x1x512 .f32) (ix3 (0 : Fin 1) (0 : Fin 1) d)
      = squeeze (V m c main_v29 : S32x1x512.Idx → EReal) (ix2 b d) := by
  obtain ⟨e0, e1, e2⟩ := idx6 t
  unfold iblk
  rw [View.read_apply]
  show (V m c main_v29 : S32x1x512.Idx → EReal) _ = (V m c main_v29 : S32x1x512.Idx → EReal) (ix3 b (0 : Fin 1) d)
  refine congrArg _ (funext fun ax => Fin.ext ?_)
  match ax with
  | ⟨0, _⟩ => show win0_6.index t (0 : Fin 3) * 1 + 1 * 0 = b.val; omega
  | ⟨1, _⟩ => show win0_6.index t (1 : Fin 3) * 1 + 1 * 0 = 0; omega
  | ⟨2, _⟩ => show win0_6.index t (2 : Fin 3) * 512 + 1 * d.val = d.val; omega

/-- The second normalisation's scale block at a point is sample `b`'s 512 scales. -/
theorem blk7_apply (c : Dev nD) (t : Fin cfg0.N) (b : Fin 32) (d : Fin 512) (hb : b.val = win0_9.index t (0 : Fin 3)) :
    (iblk m c 7 t : Vec Ideal S1x1x512 .f32) (ix3 (0 : Fin 1) (0 : Fin 1) d)
      = squeeze (V m c main_v34 : S32x1x512.Idx → EReal) (ix2 b d) := by
  obtain ⟨e0, e1, e2⟩ := idx7 t
  unfold iblk
  rw [View.read_apply]
  show (V m c main_v34 : S32x1x512.Idx → EReal) _ = (V m c main_v34 : S32x1x512.Idx → EReal) (ix3 b (0 : Fin 1) d)
  refine congrArg _ (funext fun ax => Fin.ext ?_)
  match ax with
  | ⟨0, _⟩ => show win0_7.index t (0 : Fin 3) * 1 + 1 * 0 = b.val; omega
  | ⟨1, _⟩ => show win0_7.index t (1 : Fin 3) * 1 + 1 * 0 = 0; omega
  | ⟨2, _⟩ => show win0_7.index t (2 : Fin 3) * 512 + 1 * d.val = d.val; omega

/-- The second normalisation's shift block at a point is sample `b`'s 512 shifts. -/
theorem blk8_apply (c : Dev nD) (t : Fin cfg0.N) (b : Fin 32) (d : Fin 512) (hb : b.val = win0_9.index t (0 : Fin 3)) :
    (iblk m c 8 t : Vec Ideal S1x1x512 .f32) (ix3 (0 : Fin 1) (0 : Fin 1) d)
      = squeeze (V m c main_v39 : S32x1x512.Idx → EReal) (ix2 b d) := by
  obtain ⟨e0, e1, e2⟩ := idx8 t
  unfold iblk
  rw [View.read_apply]
  show (V m c main_v39 : S32x1x512.Idx → EReal) _ = (V m c main_v39 : S32x1x512.Idx → EReal) (ix3 b (0 : Fin 1) d)
  refine congrArg _ (funext fun ax => Fin.ext ?_)
  match ax with
  | ⟨0, _⟩ => show win0_8.index t (0 : Fin 3) * 1 + 1 * 0 = b.val; omega
  | ⟨1, _⟩ => show win0_8.index t (1 : Fin 3) * 1 + 1 * 0 = 0; omega
  | ⟨2, _⟩ => show win0_8.index t (2 : Fin 3) * 512 + 1 * d.val = d.val; omega

/-! ## What a point writes back -/

/-- The stored value at an index of the block whose row and column are `p` and `q`. -/
theorem stored_at (x0 : Vec Ideal S1x512x512 .f32) (x1 : Vec Ideal S1x64x512 .f32) (x2 : Vec Ideal S1x1x64 .f32)
    (x3 : Vec Ideal S1x512x64 .f32) (x4 x5 x6 x7 x8 : Vec Ideal S1x1x512 .f32) (y : S1x512x512.Idx) (p q : Fin 512)
    (hp : (y 1).val = p.val) (hq : (y 2).val = q.val) :
    k0_pay4 (k0_pay1 x0) (k0_pay2 x0 x5 x6 x1 x2) (k0_pay3 (F := Ideal)) x3 x4 x7 x8 y
      = Spec.rowMul (fun a d => x1 (ix3 (0 : Fin 1) a d)) (fun a => x2 (ix3 (0 : Fin 1) (0 : Fin 1) a))
          (fun d a => x3 (ix3 (0 : Fin 1) d a)) (fun d => x4 (ix3 (0 : Fin 1) (0 : Fin 1) d))
          (fun d => x5 (ix3 (0 : Fin 1) (0 : Fin 1) d)) (fun d => x6 (ix3 (0 : Fin 1) (0 : Fin 1) d))
          (fun d => x7 (ix3 (0 : Fin 1) (0 : Fin 1) d)) (fun d => x8 (ix3 (0 : Fin 1) (0 : Fin 1) d))
          (fun k => x0 (ix3 (0 : Fin 1) p k)) q := by
  have h0 : (y 0).val < 1 := (y 0).isLt
  have hy : y = ix3 (0 : Fin 1) p q := funext fun a => Fin.ext (by
    match a with
    | ⟨0, _⟩ => show (y 0).val = 0; omega
    | ⟨1, _⟩ => exact hp
    | ⟨2, _⟩ => exact hq)
  rw [hy]
  exact Body.stored_apply x0 x1 x2 x3 x4 x5 x6 x7 x8 (0 : Fin 1) p q

/-- WHAT POINT `t` WRITES BACK is block `t` of `whole`. -/
theorem flushed_eq (c : Dev nD) (t : Fin cfg0.N) :
    (dats m 0 c).flushed 9 t = ((cfg0.win 9).blk t).view.read (Elt Ideal) (whole m c) := by
  rw [Value.flushed9]
  unfold out0_9
  rw [View.canon_unit_zero hz]
  simp only [View.ld_unit_zero (S := S1x512x512) hz, View.ld_unit_zero (S := S1x1x512) hz, View.ld_unit_zero (S := S1x64x512) hz,
    View.ld_unit_zero (S := S1x1x64) hz, View.ld_unit_zero (S := S1x512x64) hz]
  obtain ⟨h90, h91, h92⟩ := idx9 t
  funext y
  have hy0 : (y 0).val < 1 := (y 0).isLt
  have hy1 : (y 1).val < 512 := (y 1).isLt
  have hy2 : (y 2).val < 512 := (y 2).isLt
  have hb : win0_9.index t (0 : Fin 3) < 32 := by omega
  have hs : win0_9.index t (1 : Fin 3) * 512 + (y 1).val < 2048 := by omega
  show k0_pay4 (k0_pay1 (iblk m c 0 t)) (k0_pay2 (iblk m c 0 t) (iblk m c 5 t) (iblk m c 6 t) (iblk m c 1 t) (iblk m c 2 t))
      (k0_pay3 (F := Ideal)) (iblk m c 3 t) (iblk m c 4 t) (iblk m c 7 t) (iblk m c 8 t) y
    = whole m c (((cfg0.win 9).blk t).view.emb y)
  have hi : ((cfg0.win 9).blk t).view.emb y
      = ix3 (⟨win0_9.index t (0 : Fin 3), hb⟩ : Fin 32) (⟨win0_9.index t (1 : Fin 3) * 512 + (y 1).val, hs⟩ : Fin 2048)
          (⟨(y 2).val, hy2⟩ : Fin 512) := funext fun a => Fin.ext (by
    match a with
    | ⟨0, _⟩ => show win0_9.index t (0 : Fin 3) * 1 + 1 * (y 0).val = win0_9.index t (0 : Fin 3); omega
    | ⟨1, _⟩ => show win0_9.index t (1 : Fin 3) * 512 + 1 * (y 1).val = win0_9.index t (1 : Fin 3) * 512 + (y 1).val; omega
    | ⟨2, _⟩ => show win0_9.index t (2 : Fin 3) * 512 + 1 * (y 2).val = (y 2).val; omega)
  rw [hi]
  refine (stored_at (iblk m c 0 t) (iblk m c 1 t) (iblk m c 2 t) (iblk m c 3 t) (iblk m c 4 t) (iblk m c 5 t) (iblk m c 6 t)
    (iblk m c 7 t) (iblk m c 8 t) y (⟨(y 1).val, hy1⟩ : Fin 512) (⟨(y 2).val, hy2⟩ : Fin 512) rfl rfl).trans ?_
  exact Spec.rowMul_congr
    (fun a d => blk1_apply m c t ⟨win0_9.index t (0 : Fin 3), hb⟩ a d rfl)
    (fun a => blk2_apply m c t ⟨win0_9.index t (0 : Fin 3), hb⟩ a rfl)
    (fun d a => blk3_apply m c t ⟨win0_9.index t (0 : Fin 3), hb⟩ d a rfl)
    (fun d => blk4_apply m c t ⟨win0_9.index t (0 : Fin 3), hb⟩ d rfl)
    (fun d => blk5_apply m c t ⟨win0_9.index t (0 : Fin 3), hb⟩ d rfl)
    (fun d => blk6_apply m c t ⟨win0_9.index t (0 : Fin 3), hb⟩ d rfl)
    (fun d => blk7_apply m c t ⟨win0_9.index t (0 : Fin 3), hb⟩ d rfl)
    (fun d => blk8_apply m c t ⟨win0_9.index t (0 : Fin 3), hb⟩ d rfl)
    (fun k => blk0_apply m c t ⟨win0_9.index t (0 : Fin 3), hb⟩ ⟨win0_9.index t (1 : Fin 3) * 512 + (y 1).val, hs⟩
      ⟨(y 1).val, hy1⟩ k rfl rfl)
    _

/-! ## The blocks cover the array -/

/-- An index of the array is in point `t`'s block iff each coordinate is in the block's range on its axis. -/
theorem mem_blk (t : Fin cfg0.N) (i : S32x2048x512.Idx) :
    i ∈ ((cfg0.win 9).blk t).view.set ↔ ∀ a : Fin 3, win0_9.index t a * S1x512x512.size a ≤ (i a).val
      ∧ (i a).val < win0_9.index t a * S1x512x512.size a + S1x512x512.size a := by
  show i ∈ ((View.whole main_v40).slice (win0_9.rect t)).set ↔ _
  rw [View.set_slice_whole, Rect.mem_set_unit]
  exact Iff.rfl

/-- Entry `(b, s, q)` lies in the block of the point with block index `(b, s / 512, 0)`. -/
theorem cover (i : S32x2048x512.Idx) :
    ∃ t : Fin cfg0.N, (cfg0.win 9).flush t = true ∧ i ∈ ((cfg0.win 9).blk t).view.set := by
  have hi0 : (i 0).val < 32 := (i 0).isLt
  have hi1 : (i 1).val < 2048 := (i 1).isLt
  have hi2 : (i 2).val < 512 := (i 2).isLt
  obtain ⟨t, ht⟩ := idx_onto ⟨(i 0).val, hi0⟩ ⟨(i 1).val / 512, by omega⟩
  have q0 : win0_9.index t (0 : Fin 3) = (i 0).val := congrFun ht 0
  have q1 : win0_9.index t (1 : Fin 3) = (i 1).val / 512 := congrFun ht 1
  have q2 : win0_9.index t (2 : Fin 3) = 0 := congrFun ht 2
  refine ⟨t, flush0_9 t, ?_⟩
  rw [mem_blk]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 512 ≤ (i 1).val ∧ (i 1).val < win0_9.index t (1 : Fin 3) * 512 + 512; omega
  | ⟨2, _⟩ => show win0_9.index t (2 : Fin 3) * 512 ≤ (i 2).val ∧ (i 2).val < win0_9.index t (2 : Fin 3) * 512 + 512; omega

/-- THE ARRAY after the run is `whole`. -/
theorem final (c : Dev nD) : (dats m 0 c).arrAt 9 cfg0.N = whole m c :=
  (dats m 0 c).arrAt_eq_of_cover 9 (whole m c) (fun t _ => flushed_eq m c t) cover

/-! ## The run, read -/

/-- The kernel program's run: the result array ends at `whole`, the eighteen arguments unchanged. -/
theorem run : θ_run defs (onTc (τ := τ) (main (F := Ideal))) ⟨m, fun _ => 0, ρ⟩ fun r => ∀ c : Dev nD,
      r.2.mem ((c : Thread nD τ).loc main_v40) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17) :=
  (θ_run defs _ _).mono (fun _ h c => ⟨(h c).1.trans (final m c), (h c).2⟩) (Value.run_blocks m ρ)

end Cert.KernelIdeal.Whole

end
-- ==== Proof.RefStages.lean ====
/-
  The reference program's stages, read at an index.

  The reference works on the whole `[32, 2048, 512]` token array at once.  Read at an entry `(b, s, ·)`, each stage
  depends on token row `(b, s)` and on sample `b`'s parameters only: the row mean and variance are the row's, the two
  projections contract over the row and over the 64 channels, and the scales, shifts and biases are broadcast from
  sample `b`'s row of each parameter matrix.  So entry `(b, s, q)` of the reference's result is the row map
  `Spec.rowDiv` of sample `b`'s parameters on token row `(b, s)`, at `q`.
-/
import proofs.«121885_j51539607552027_1_alg».proof.Proof.Gen.ReferenceIdeal.Read
import proofs.«121885_j51539607552027_1_alg».proof.Proof.Spec
import Idealize.ShloMosaic.Lib.ValueIdx
import Idealize.ShloMosaic.PureOps.Ideal.Laws

noncomputable section

namespace Cert.ReferenceIdeal.Stages

open Cert.ReferenceIdeal Cert.ReferenceIdeal.Read Idealize.ShloMosaic Idealize.ShloMosaic.ValueIdx

variable (x0 : (⟨S32x64, .f32⟩ : BufTy).Contents (Elt Ideal)) (x1 : (⟨S32x2048x512, .f32⟩ : BufTy).Contents (Elt Ideal))
  (x2 : (⟨S64x32768, .f32⟩ : BufTy).Contents (Elt Ideal)) (x3 : (⟨S32768, .f32⟩ : BufTy).Contents (Elt Ideal))
  (x4 : (⟨S64x64, .f32⟩ : BufTy).Contents (Elt Ideal)) (x5 : (⟨S64, .f32⟩ : BufTy).Contents (Elt Ideal))
  (x6 : (⟨S64x32768, .f32⟩ : BufTy).Contents (Elt Ideal)) (x7 : (⟨S32768, .f32⟩ : BufTy).Contents (Elt Ideal))
  (x8 : (⟨S64x512, .f32⟩ : BufTy).Contents (Elt Ideal)) (x9 : (⟨S512, .f32⟩ : BufTy).Contents (Elt Ideal))
  (x10 : (⟨S64x512, .f32⟩ : BufTy).Contents (Elt Ideal)) (x11 : (⟨S512, .f32⟩ : BufTy).Contents (Elt Ideal))
  (x12 : (⟨S64x512, .f32⟩ : BufTy).Contents (Elt Ideal)) (x13 : (⟨S512, .f32⟩ : BufTy).Contents (Elt Ideal))
  (x14 : (⟨S64x512, .f32⟩ : BufTy).Contents (Elt Ideal)) (x15 : (⟨S512, .f32⟩ : BufTy).Contents (Elt Ideal))
  (x16 : (⟨S64x512, .f32⟩ : BufTy).Contents (Elt Ideal)) (x17 : (⟨S512, .f32⟩ : BufTy).Contents (Elt Ideal))

/-! ## Where each layout operation reads its operand, at an index given by coordinates -/

theorem i27 (b : Fin 32) (s : Fin 2048) (u : Fin 1) : idx_main_v27 (ix3 b s u) = ix2 b s := by
  funext a; apply Fin.ext; match a with | ⟨0, _⟩ => rfl | ⟨1, _⟩ => rfl
theorem i26 (b : Fin 32) (s : Fin 2048) (k : Fin 512) : idx_main_v26 (ix2 b s) k = ix3 b s k := by
  funext a; apply Fin.ext; match a with | ⟨0, _⟩ => rfl | ⟨1, _⟩ => rfl | ⟨2, _⟩ => rfl
theorem i30 (b : Fin 32) (s : Fin 2048) (q : Fin 512) : idx_main_v30 (ix3 b s q) = ix3 b s (0 : Fin 1) := by
  funext a; apply Fin.ext; match a with | ⟨0, _⟩ => rfl | ⟨1, _⟩ => rfl | ⟨2, _⟩ => rfl
theorem i34 (b : Fin 32) (s : Fin 2048) (u : Fin 1) : idx_main_v34 (ix3 b s u) = ix2 b s := by
  funext a; apply Fin.ext; match a with | ⟨0, _⟩ => rfl | ⟨1, _⟩ => rfl
theorem i33 (b : Fin 32) (s : Fin 2048) (k : Fin 512) : idx_main_v33 (ix2 b s) k = ix3 b s k := by
  funext a; apply Fin.ext; match a with | ⟨0, _⟩ => rfl | ⟨1, _⟩ => rfl | ⟨2, _⟩ => rfl
theorem i39 (b : Fin 32) (s : Fin 2048) (q : Fin 512) : idx_main_v39 (ix3 b s q) = ix3 b s (0 : Fin 1) := by
  funext a; apply Fin.ext; match a with | ⟨0, _⟩ => rfl | ⟨1, _⟩ => rfl | ⟨2, _⟩ => rfl
theorem i42 (b : Fin 32) (s : Fin 2048) (q : Fin 512) : idx_main_v42 (ix3 b s q) = ix3 b s (0 : Fin 1) := by
  funext a; apply Fin.ext; match a with | ⟨0, _⟩ => rfl | ⟨1, _⟩ => rfl | ⟨2, _⟩ => rfl
theorem i45 (b : Fin 32) (s : Fin 2048) (q : Fin 512) : idx_main_v45 (ix3 b s q) = ix3 b (0 : Fin 1) q := by
  funext a; apply Fin.ext; match a with | ⟨0, _⟩ => rfl | ⟨1, _⟩ => rfl | ⟨2, _⟩ => rfl
theorem i44 (b : Fin 32) (u : Fin 1) (q : Fin 512) : idx_main_v44 (ix3 b u q) = ix2 b q := by
  funext a; apply Fin.ext; match a with | ⟨0, _⟩ => rfl | ⟨1, _⟩ => rfl
theorem i48 (b : Fin 32) (s : Fin 2048) (q : Fin 512) : idx_main_v48 (ix3 b s q) = ix3 b (0 : Fin 1) q := by
  funext a; apply Fin.ext; match a with | ⟨0, _⟩ => rfl | ⟨1, _⟩ => rfl | ⟨2, _⟩ => rfl
theorem i47 (b : Fin 32) (u : Fin 1) (q : Fin 512) : idx_main_v47 (ix3 b u q) = ix2 b q := by
  funext a; apply Fin.ext; match a with | ⟨0, _⟩ => rfl | ⟨1, _⟩ => rfl

/-! ## The first layer normalisation -/

/-- The kept column of row means, at `(b, s, ·)`, is the mean of token row `(b, s)`. -/
theorem mean1 (b : Fin 32) (s : Fin 2048) (u : Fin 1) :
    val_main_v29 (F := Ideal) x1 (ix3 b s u) = Spec.mean fun k => x1 (ix3 b s k) := by
  rw [val_main_v29_apply, val_main_v27_apply, val_main_v28_apply, val_main_cst_0_apply, i27 b s u, val_main_v26_apply,
    val_main_cst_apply]
  rw [Finset.sum_congr rfl fun k _ => congrArg x1 (i26 b s k)]
  show Ideal.div (Ideal.ofBits .f32 0x00000000#32 + _) _ = _
  rw [Ideal.ofBits_zero_f32, zero_add]
  rfl

/-- The centred token array, as the variance reads it. -/
theorem centred1 (b : Fin 32) (s : Fin 2048) (q : Fin 512) :
    val_main_v31 (F := Ideal) x1 (ix3 b s q) = x1 (ix3 b s q) - Spec.mean fun k => x1 (ix3 b s k) := by
  rw [val_main_v31_apply, val_main_v30_apply, i30 b s q, mean1]
  rfl

/-- The centred token array, as the quotient reads it (the program subtracts the mean a second time). -/
theorem centred1' (b : Fin 32) (s : Fin 2048) (q : Fin 512) :
    val_main_v40 (F := Ideal) x1 (ix3 b s q) = x1 (ix3 b s q) - Spec.mean fun k => x1 (ix3 b s k) := by
  rw [val_main_v40_apply, val_main_v39_apply, i39 b s q, mean1]
  rfl

/-- The kept column of row variances, the constant added. -/
theorem var1 (b : Fin 32) (s : Fin 2048) (u : Fin 1) :
    val_main_v38 (F := Ideal) x1 (ix3 b s u) = Spec.var fun k => x1 (ix3 b s k) := by
  rw [val_main_v38_apply, val_main_v36_apply, val_main_v34_apply, val_main_v35_apply, val_main_cst_2_apply, val_main_v37_apply,
    val_main_cst_3_apply, i34 b s u, val_main_v33_apply, val_main_cst_1_apply]
  have e : ∀ k : Fin 512, val_main_v32 (F := Ideal) x1 (idx_main_v33 (ix2 b s) k)
      = (x1 (ix3 b s k) - Spec.mean fun k => x1 (ix3 b s k)) * (x1 (ix3 b s k) - Spec.mean fun k => x1 (ix3 b s k)) := fun k => by
    rw [i33 b s k, val_main_v32_apply, centred1]
    rfl
  rw [Finset.sum_congr rfl fun k _ => e k]
  show Ideal.div (Ideal.ofBits .f32 0x00000000#32 + _) _ + _ = _
  rw [Ideal.ofBits_zero_f32, zero_add]
  rfl

/-- The first normalisation's result at `(b, s, d)`: the row divided by the square root of its variance, scaled and
    shifted by sample `b`'s row of the two parameter matrices. -/
theorem norm1 (b : Fin 32) (s : Fin 2048) (d : Fin 512) :
    val_main_v49 (F := Ideal) x0 x1 x10 x11 x12 x13 (ix3 b s d)
      = Spec.lnDiv (fun d => val_main_v21 (F := Ideal) x0 x10 x11 (ix2 b d)) (fun d => val_main_v25 (F := Ideal) x0 x12 x13 (ix2 b d))
          (fun k => x1 (ix3 b s k)) d := by
  rw [val_main_v49_apply, val_main_v46_apply, val_main_v43_apply, val_main_v42_apply, val_main_v41_apply, val_main_v45_apply,
    val_main_v44_apply, val_main_v48_apply, val_main_v47_apply, i42 b s d, i45 b s d, i44 b 0 d, i48 b s d, i47 b 0 d,
    centred1', var1]
  rfl

/-! ## Sample `b`'s parameters, and the rows between the stages -/

/-- Sample `b`'s `64 × 512` projection down. -/
abbrev pWd (b : Fin 32) : Fin 64 → Fin 512 → EReal := fun a d => val_main_v4 (F := Ideal) x0 x2 x3 (ix3 b a d)
/-- Sample `b`'s 64 biases of the projection down. -/
abbrev pBd (b : Fin 32) : Fin 64 → EReal := fun a => val_main_v8 (F := Ideal) x0 x4 x5 (ix2 b a)
/-- Sample `b`'s `512 × 64` projection up. -/
abbrev pWu (b : Fin 32) : Fin 512 → Fin 64 → EReal := fun d a => val_main_v13 (F := Ideal) x0 x6 x7 (ix3 b d a)
/-- Sample `b`'s 512 biases of the projection up. -/
abbrev pBu (b : Fin 32) : Fin 512 → EReal := fun d => val_main_v17 (F := Ideal) x0 x8 x9 (ix2 b d)
/-- Sample `b`'s scale and shift of the first normalisation. -/
abbrev pPw (b : Fin 32) : Fin 512 → EReal := fun d => val_main_v21 (F := Ideal) x0 x10 x11 (ix2 b d)
abbrev pPb (b : Fin 32) : Fin 512 → EReal := fun d => val_main_v25 (F := Ideal) x0 x12 x13 (ix2 b d)
/-- Sample `b`'s scale and shift of the second normalisation. -/
abbrev pQw (b : Fin 32) : Fin 512 → EReal := fun d => val_main_v62 (F := Ideal) x0 x14 x15 (ix2 b d)
abbrev pQb (b : Fin 32) : Fin 512 → EReal := fun d => val_main_v66 (F := Ideal) x0 x16 x17 (ix2 b d)

/-- Token row `(b, s)` after the first normalisation. -/
abbrev zRow (b : Fin 32) (s : Fin 2048) : Fin 512 → EReal :=
  Spec.lnDiv (pPw x0 x10 x11 b) (pPb x0 x12 x13 b) fun k => x1 (ix3 b s k)
/-- Its 64 channels after the projection down and the rectifier. -/
abbrev hRow (b : Fin 32) (s : Fin 2048) : Fin 64 → EReal :=
  fun a => max (Spec.down (pWd x0 x2 x3 b) (pBd x0 x4 x5 b) (zRow x0 x1 x10 x11 x12 x13 b s) a) 0
/-- The row after the projection up: what the second normalisation reads. -/
abbrev oRow (b : Fin 32) (s : Fin 2048) : Fin 512 → EReal :=
  Spec.up (pWu x0 x6 x7 b) (pBu x0 x8 x9 b) (hRow x0 x1 x2 x3 x4 x5 x10 x11 x12 x13 b s)

theorem norm1' (b : Fin 32) (s : Fin 2048) (d : Fin 512) :
    val_main_v49 (F := Ideal) x0 x1 x10 x11 x12 x13 (ix3 b s d) = zRow x0 x1 x10 x11 x12 x13 b s d :=
  norm1 x0 x1 x10 x11 x12 x13 b s d

/-! ## The two projections and the rectifier -/

theorem i52 (b : Fin 32) (s : Fin 2048) (a : Fin 64) : idx_main_v52 (ix3 b s a) = ix3 b (0 : Fin 1) a := by
  funext c; apply Fin.ext; match c with | ⟨0, _⟩ => rfl | ⟨1, _⟩ => rfl | ⟨2, _⟩ => rfl
theorem i51 (b : Fin 32) (u : Fin 1) (a : Fin 64) : idx_main_v51 (ix3 b u a) = ix2 b a := by
  funext c; apply Fin.ext; match c with | ⟨0, _⟩ => rfl | ⟨1, _⟩ => rfl
theorem l50 (b : Fin 32) (s : Fin 2048) (a : Fin 64) (k : Fin 512) : lidx_main_v50 (ix3 b s a) k = ix3 b s k := by
  funext c; apply Fin.ext; match c with | ⟨0, _⟩ => rfl | ⟨1, _⟩ => rfl | ⟨2, _⟩ => rfl
theorem r50 (b : Fin 32) (s : Fin 2048) (a : Fin 64) (k : Fin 512) : ridx_main_v50 (ix3 b s a) k = ix3 b a k := by
  funext c; apply Fin.ext; match c with | ⟨0, _⟩ => rfl | ⟨1, _⟩ => rfl | ⟨2, _⟩ => rfl
theorem l55 (b : Fin 32) (s : Fin 2048) (d : Fin 512) (k : Fin 64) : lidx_main_v55 (ix3 b s d) k = ix3 b s k := by
  funext c; apply Fin.ext; match c with | ⟨0, _⟩ => rfl | ⟨1, _⟩ => rfl | ⟨2, _⟩ => rfl
theorem r55 (b : Fin 32) (s : Fin 2048) (d : Fin 512) (k : Fin 64) : ridx_main_v55 (ix3 b s d) k = ix3 b d k := by
  funext c; apply Fin.ext; match c with | ⟨0, _⟩ => rfl | ⟨1, _⟩ => rfl | ⟨2, _⟩ => rfl
theorem i57 (b : Fin 32) (s : Fin 2048) (d : Fin 512) : idx_main_v57 (ix3 b s d) = ix3 b (0 : Fin 1) d := by
  funext c; apply Fin.ext; match c with | ⟨0, _⟩ => rfl | ⟨1, _⟩ => rfl | ⟨2, _⟩ => rfl
theorem i56 (b : Fin 32) (u : Fin 1) (d : Fin 512) : idx_main_v56 (ix3 b u d) = ix2 b d := by
  funext c; apply Fin.ext; match c with | ⟨0, _⟩ => rfl | ⟨1, _⟩ => rfl

/-- The projection down with its bias, at `(b, s, a)`. -/
theorem down1 (b : Fin 32) (s : Fin 2048) (a : Fin 64) :
    val_main_v53 (F := Ideal) x0 x1 x2 x3 x4 x5 x10 x11 x12 x13 (ix3 b s a)
      = Spec.down (pWd x0 x2 x3 b) (pBd x0 x4 x5 b) (zRow x0 x1 x10 x11 x12 x13 b s) a := by
  rw [val_main_v53_apply, val_main_v52_apply, val_main_v51_apply, i52 b s a, i51 b 0 a, val_main_v50_apply]
  have e : ∀ k : Fin 512, val_main_v49 (F := Ideal) x0 x1 x10 x11 x12 x13 (lidx_main_v50 (ix3 b s a) k)
        * val_main_v4 (F := Ideal) x0 x2 x3 (ridx_main_v50 (ix3 b s a) k)
      = zRow x0 x1 x10 x11 x12 x13 b s k * val_main_v4 (F := Ideal) x0 x2 x3 (ix3 b a k) := fun k => by
    rw [l50 b s a k, r50 b s a k, norm1']
  rw [Finset.sum_congr rfl fun k _ => e k]
  rfl

/-- The rectifier, at `(b, s, a)`. -/
theorem relu1 (b : Fin 32) (s : Fin 2048) (a : Fin 64) :
    val_main_v54 (F := Ideal) x0 x1 x2 x3 x4 x5 x10 x11 x12 x13 (ix3 b s a) = hRow x0 x1 x2 x3 x4 x5 x10 x11 x12 x13 b s a := by
  rw [val_main_v54_apply, val_main_call0_v0_apply, val_main_call0_cst_apply, down1]
  show max _ (Ideal.ofBits .f32 0x00000000#32) = _
  rw [Ideal.ofBits_zero_f32]

/-- The projection up with its bias, at `(b, s, d)`. -/
theorem up1 (b : Fin 32) (s : Fin 2048) (d : Fin 512) :
    val_main_v58 (F := Ideal) x0 x1 x2 x3 x4 x5 x6 x7 x8 x9 x10 x11 x12 x13 (ix3 b s d) = oRow x0 x1 x2 x3 x4 x5 x6 x7 x8 x9 x10 x11 x12 x13 b s d := by
  rw [val_main_v58_apply, val_main_v57_apply, val_main_v56_apply, i57 b s d, i56 b 0 d, val_main_v55_apply]
  have e : ∀ k : Fin 64, val_main_v54 (F := Ideal) x0 x1 x2 x3 x4 x5 x10 x11 x12 x13 (lidx_main_v55 (ix3 b s d) k)
        * val_main_v13 (F := Ideal) x0 x6 x7 (ridx_main_v55 (ix3 b s d) k)
      = hRow x0 x1 x2 x3 x4 x5 x10 x11 x12 x13 b s k * val_main_v13 (F := Ideal) x0 x6 x7 (ix3 b d k) := fun k => by
    rw [l55 b s d k, r55 b s d k, relu1]
  rw [Finset.sum_congr rfl fun k _ => e k]
  rfl

/-! ## The second layer normalisation and the residual sum -/

theorem i68 (b : Fin 32) (s : Fin 2048) (u : Fin 1) : idx_main_v68 (ix3 b s u) = ix2 b s := by
  funext c; apply Fin.ext; match c with | ⟨0, _⟩ => rfl | ⟨1, _⟩ => rfl
theorem i67 (b : Fin 32) (s : Fin 2048) (k : Fin 512) : idx_main_v67 (ix2 b s) k = ix3 b s k := by
  funext c; apply Fin.ext; match c with | ⟨0, _⟩ => rfl | ⟨1, _⟩ => rfl | ⟨2, _⟩ => rfl
theorem i71 (b : Fin 32) (s : Fin 2048) (q : Fin 512) : idx_main_v71 (ix3 b s q) = ix3 b s (0 : Fin 1) := by
  funext c; apply Fin.ext; match c with | ⟨0, _⟩ => rfl | ⟨1, _⟩ => rfl | ⟨2, _⟩ => rfl
theorem i75 (b : Fin 32) (s : Fin 2048) (u : Fin 1) : idx_main_v75 (ix3 b s u) = ix2 b s := by
  funext c; apply Fin.ext; match c with | ⟨0, _⟩ => rfl | ⟨1, _⟩ => rfl
theorem i74 (b : Fin 32) (s : Fin 2048) (k : Fin 512) : idx_main_v74 (ix2 b s) k = ix3 b s k := by
  funext c; apply Fin.ext; match c with | ⟨0, _⟩ => rfl | ⟨1, _⟩ => rfl | ⟨2, _⟩ => rfl
theorem i80 (b : Fin 32) (s : Fin 2048) (q : Fin 512) : idx_main_v80 (ix3 b s q) = ix3 b s (0 : Fin 1) := by
  funext c; apply Fin.ext; match c with | ⟨0, _⟩ => rfl | ⟨1, _⟩ => rfl | ⟨2, _⟩ => rfl
theorem i83 (b : Fin 32) (s : Fin 2048) (q : Fin 512) : idx_main_v83 (ix3 b s q) = ix3 b s (0 : Fin 1) := by
  funext c; apply Fin.ext; match c with | ⟨0, _⟩ => rfl | ⟨1, _⟩ => rfl | ⟨2, _⟩ => rfl
theorem i86 (b : Fin 32) (s : Fin 2048) (q : Fin 512) : idx_main_v86 (ix3 b s q) = ix3 b (0 : Fin 1) q := by
  funext c; apply Fin.ext; match c with | ⟨0, _⟩ => rfl | ⟨1, _⟩ => rfl | ⟨2, _⟩ => rfl
theorem i85 (b : Fin 32) (u : Fin 1) (q : Fin 512) : idx_main_v85 (ix3 b u q) = ix2 b q := by
  funext c; apply Fin.ext; match c with | ⟨0, _⟩ => rfl | ⟨1, _⟩ => rfl
theorem i89 (b : Fin 32) (s : Fin 2048) (q : Fin 512) : idx_main_v89 (ix3 b s q) = ix3 b (0 : Fin 1) q := by
  funext c; apply Fin.ext; match c with | ⟨0, _⟩ => rfl | ⟨1, _⟩ => rfl | ⟨2, _⟩ => rfl
theorem i88 (b : Fin 32) (u : Fin 1) (q : Fin 512) : idx_main_v88 (ix3 b u q) = ix2 b q := by
  funext c; apply Fin.ext; match c with | ⟨0, _⟩ => rfl | ⟨1, _⟩ => rfl

/-- The kept column of the second means, at `(b, s, ·)`. -/
theorem mean2 (b : Fin 32) (s : Fin 2048) (u : Fin 1) :
    val_main_v70 (F := Ideal) x0 x1 x2 x3 x4 x5 x6 x7 x8 x9 x10 x11 x12 x13 (ix3 b s u) = Spec.mean (oRow x0 x1 x2 x3 x4 x5 x6 x7 x8 x9 x10 x11 x12 x13 b s) := by
  rw [val_main_v70_apply, val_main_v68_apply, val_main_v69_apply, val_main_cst_5_apply, i68 b s u, val_main_v67_apply,
    val_main_cst_4_apply]
  have e : ∀ k : Fin 512, val_main_v58 (F := Ideal) x0 x1 x2 x3 x4 x5 x6 x7 x8 x9 x10 x11 x12 x13 (idx_main_v67 (ix2 b s) k) = oRow x0 x1 x2 x3 x4 x5 x6 x7 x8 x9 x10 x11 x12 x13 b s k := fun k => by
    rw [i67 b s k, up1]
  rw [Finset.sum_congr rfl fun k _ => e k]
  show Ideal.div (Ideal.ofBits .f32 0x00000000#32 + _) _ = _
  rw [Ideal.ofBits_zero_f32, zero_add]
  rfl

theorem centred2 (b : Fin 32) (s : Fin 2048) (q : Fin 512) :
    val_main_v72 (F := Ideal) x0 x1 x2 x3 x4 x5 x6 x7 x8 x9 x10 x11 x12 x13 (ix3 b s q) = oRow x0 x1 x2 x3 x4 x5 x6 x7 x8 x9 x10 x11 x12 x13 b s q - Spec.mean (oRow x0 x1 x2 x3 x4 x5 x6 x7 x8 x9 x10 x11 x12 x13 b s) := by
  rw [val_main_v72_apply, val_main_v71_apply, i71 b s q, mean2, up1]
  rfl

theorem centred2' (b : Fin 32) (s : Fin 2048) (q : Fin 512) :
    val_main_v81 (F := Ideal) x0 x1 x2 x3 x4 x5 x6 x7 x8 x9 x10 x11 x12 x13 (ix3 b s q) = oRow x0 x1 x2 x3 x4 x5 x6 x7 x8 x9 x10 x11 x12 x13 b s q - Spec.mean (oRow x0 x1 x2 x3 x4 x5 x6 x7 x8 x9 x10 x11 x12 x13 b s) := by
  rw [val_main_v81_apply, val_main_v80_apply, i80 b s q, mean2, up1]
  rfl

/-- The kept column of the second variances, the constant added. -/
theorem var2 (b : Fin 32) (s : Fin 2048) (u : Fin 1) :
    val_main_v79 (F := Ideal) x0 x1 x2 x3 x4 x5 x6 x7 x8 x9 x10 x11 x12 x13 (ix3 b s u) = Spec.var (oRow x0 x1 x2 x3 x4 x5 x6 x7 x8 x9 x10 x11 x12 x13 b s) := by
  rw [val_main_v79_apply, val_main_v77_apply, val_main_v75_apply, val_main_v76_apply, val_main_cst_7_apply, val_main_v78_apply,
    val_main_cst_8_apply, i75 b s u, val_main_v74_apply, val_main_cst_6_apply]
  have e : ∀ k : Fin 512, val_main_v73 (F := Ideal) x0 x1 x2 x3 x4 x5 x6 x7 x8 x9 x10 x11 x12 x13 (idx_main_v74 (ix2 b s) k)
      = (oRow x0 x1 x2 x3 x4 x5 x6 x7 x8 x9 x10 x11 x12 x13 b s k - Spec.mean (oRow x0 x1 x2 x3 x4 x5 x6 x7 x8 x9 x10 x11 x12 x13 b s)) * (oRow x0 x1 x2 x3 x4 x5 x6 x7 x8 x9 x10 x11 x12 x13 b s k - Spec.mean (oRow x0 x1 x2 x3 x4 x5 x6 x7 x8 x9 x10 x11 x12 x13 b s)) := fun k => by
    rw [i74 b s k, val_main_v73_apply, centred2]
    rfl
  rw [Finset.sum_congr rfl fun k _ => e k]
  show Ideal.div (Ideal.ofBits .f32 0x00000000#32 + _) _ + _ = _
  rw [Ideal.ofBits_zero_f32, zero_add]
  rfl

/-- ENTRY `(b, s, q)` OF THE REFERENCE'S RESULT: the row map, normalising by division, of sample `b`'s parameters on
    token row `(b, s)`, at `q`. -/
theorem result_apply (b : Fin 32) (s : Fin 2048) (q : Fin 512) :
    val_main_v91 (F := Ideal) x0 x1 x2 x3 x4 x5 x6 x7 x8 x9 x10 x11 x12 x13 x14 x15 x16 x17 (ix3 b s q)
      = Spec.rowDiv (pWd x0 x2 x3 b) (pBd x0 x4 x5 b) (pWu x0 x6 x7 b) (pBu x0 x8 x9 b) (pPw x0 x10 x11 b) (pPb x0 x12 x13 b)
          (pQw x0 x14 x15 b) (pQb x0 x16 x17 b) (fun k => x1 (ix3 b s k)) q := by
  rw [val_main_v91_apply, val_main_v90_apply, val_main_v87_apply, val_main_v84_apply, val_main_v83_apply, val_main_v82_apply,
    val_main_v86_apply, val_main_v85_apply, val_main_v89_apply, val_main_v88_apply, i83 b s q, i86 b s q, i85 b 0 q, i89 b s q,
    i88 b 0 q, centred2', var2]
  rfl

/-- THE REFERENCE'S RESULT as one function: `Spec.result` of the token array and the eight parameter stages. -/
theorem result_eq :
    val_main_v91 (F := Ideal) x0 x1 x2 x3 x4 x5 x6 x7 x8 x9 x10 x11 x12 x13 x14 x15 x16 x17
      = Spec.result x1 (val_main_v4 (F := Ideal) x0 x2 x3) (val_main_v8 (F := Ideal) x0 x4 x5) (val_main_v13 (F := Ideal) x0 x6 x7)
          (val_main_v17 (F := Ideal) x0 x8 x9) (val_main_v21 (F := Ideal) x0 x10 x11) (val_main_v25 (F := Ideal) x0 x12 x13)
          (val_main_v62 (F := Ideal) x0 x14 x15) (val_main_v66 (F := Ideal) x0 x16 x17) := by
  funext i
  obtain ⟨b, s, q, rfl⟩ : ∃ (b : Fin 32) (s : Fin 2048) (q : Fin 512), i = ix3 b s q := ⟨i 0, i 1, i 2, eq_ix3 i⟩
  rw [result_apply]
  exact (Spec.rowMul_eq_rowDiv _ _ _ _ _ _ _ _ _ q).symm

end Cert.ReferenceIdeal.Stages

end
-- ==== Proof.LibMiddleUnit.lean ====
/-
  A layout fact about a unit axis put in the middle: an `a × b` array seen as `a × 1 × b` reads, at `(i, 0, j)`, the
  array at `(i, j)`.
-/
import Idealize.ShloMosaic.Lib.ValueIdx
import Idealize.ShloMosaic.Lib.ValueLayout
import Idealize.ShloMosaic.Lib.Pipeline.Value

namespace Cert.LibMiddleUnit

open Idealize.ShloMosaic Idealize.ShloMosaic.ValueIdx

variable {α : Type}

/-- An `[a, b]` array cast to `[a, 1, b]` reads, at `(i, u, j)`, the operand at `(i, j)`, whatever the unit
    coordinate `u`: both indices have row-major position `i · b + j`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

end Cert.LibMiddleUnit
-- ==== Proof.HostGlue.lean ====
/-
  The parameter arrays the kernel region finds are the reference's parameter stages.

  Before its one kernel launch the kernel program computes, on the host, eight per-sample parameter arrays from the
  sample embeddings: each is a product of the `32 × 64` embedding matrix with a weight matrix plus a bias row, then
  reshaped.  The reference computes the same eight products, with the same operations on the same arguments, so the
  arrays agree as terms; three of the kernel's carry a unit middle axis the reference's do not, which `squeeze` drops.
-/
import proofs.«121885_j51539607552027_1_alg».proof.Proof.Gen.KernelIdeal.Frame
import proofs.«121885_j51539607552027_1_alg».proof.Proof.Gen.ReferenceIdeal.Read
import proofs.«121885_j51539607552027_1_alg».proof.Proof.KernelWhole
import proofs.«121885_j51539607552027_1_alg».proof.Proof.LibMiddleUnit
import Idealize.ShloMosaic.Lib.StableHlo.Run
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo Cert.LibMiddleUnit

variable (m : (ℓ : Loc nD τ sig) → Buf (Elt Ideal) ℓ)

/-- The projection down: the region finds the reference's `[32, 64, 512]` stage. -/
theorem V_wd (c : Dev nD) : (V m c main_v4 : S32x64x512.Idx → EReal)
    = Cert.ReferenceIdeal.Read.val_main_v4 (F := Ideal) (m ((c : Thread nD τ).loc main_arg0)) (m ((c : Thread nD τ).loc main_arg2)) (m ((c : Thread nD τ).loc main_arg3)) := by
  dsimp only [V, hostOps0]
  after_results_simp
  rfl

/-- The projection up: the region finds the reference's `[32, 512, 64]` stage. -/
theorem V_wu (c : Dev nD) : (V m c main_v14 : S32x512x64.Idx → EReal)
    = Cert.ReferenceIdeal.Read.val_main_v13 (F := Ideal) (m ((c : Thread nD τ).loc main_arg0)) (m ((c : Thread nD τ).loc main_arg6)) (m ((c : Thread nD τ).loc main_arg7)) := by
  dsimp only [V, hostOps0]
  after_results_simp
  rfl

/-- The down-projection biases: the region finds the reference's `[32, 64]` stage with a unit middle axis. -/
theorem V_bd (c : Dev nD) : squeeze (V m c main_v9 : S32x1x64.Idx → EReal)
    = Cert.ReferenceIdeal.Read.val_main_v8 (F := Ideal) (m ((c : Thread nD τ).loc main_arg0)) (m ((c : Thread nD τ).loc main_arg4)) (m ((c : Thread nD τ).loc main_arg5)) := by
  have e : (V m c main_v9 : S32x1x64.Idx → EReal)
      = shapeCast S32x1x64 (Cert.ReferenceIdeal.Read.val_main_v8 (F := Ideal) (m ((c : Thread nD τ).loc main_arg0)) (m ((c : Thread nD τ).loc main_arg4)) (m ((c : Thread nD τ).loc main_arg5))) shapeCasts_S32x64_S32x1x64 := by
    dsimp only [V, hostOps0]
    after_results_simp
    rfl
  rw [e]
  funext i
  obtain ⟨b, a, rfl⟩ : ∃ (b : Fin 32) (a : Fin 64), i = ix2 b a := ⟨i 0, i 1, eq_ix2 i⟩
  rw [squeeze_ix2]
  exact shapeCast_ab_a1b_apply _ _ b 0 a

/-- The up-projection biases. -/
theorem V_bu (c : Dev nD) : squeeze (V m c main_v19 : S32x1x512.Idx → EReal)
    = Cert.ReferenceIdeal.Read.val_main_v17 (F := Ideal) (m ((c : Thread nD τ).loc main_arg0)) (m ((c : Thread nD τ).loc main_arg8)) (m ((c : Thread nD τ).loc main_arg9)) := by
  have e : (V m c main_v19 : S32x1x512.Idx → EReal)
      = shapeCast S32x1x512 (Cert.ReferenceIdeal.Read.val_main_v17 (F := Ideal) (m ((c : Thread nD τ).loc main_arg0)) (m ((c : Thread nD τ).loc main_arg8)) (m ((c : Thread nD τ).loc main_arg9))) shapeCasts_S32x512_S32x1x512 := by
    dsimp only [V, hostOps0]
    after_results_simp
    rfl
  rw [e]
  funext i
  obtain ⟨b, d, rfl⟩ : ∃ (b : Fin 32) (d : Fin 512), i = ix2 b d := ⟨i 0, i 1, eq_ix2 i⟩
  rw [squeeze_ix2]
  exact shapeCast_ab_a1b_apply _ _ b 0 d

/-- The first normalisation's scales. -/
theorem V_pw (c : Dev nD) : squeeze (V m c main_v24 : S32x1x512.Idx → EReal)
    = Cert.ReferenceIdeal.Read.val_main_v21 (F := Ideal) (m ((c : Thread nD τ).loc main_arg0)) (m ((c : Thread nD τ).loc main_arg10)) (m ((c : Thread nD τ).loc main_arg11)) := by
  have e : (V m c main_v24 : S32x1x512.Idx → EReal)
      = shapeCast S32x1x512 (Cert.ReferenceIdeal.Read.val_main_v21 (F := Ideal) (m ((c : Thread nD τ).loc main_arg0)) (m ((c : Thread nD τ).loc main_arg10)) (m ((c : Thread nD τ).loc main_arg11))) shapeCasts_S32x512_S32x1x512 := by
    dsimp only [V, hostOps0]
    after_results_simp
    rfl
  rw [e]
  funext i
  obtain ⟨b, d, rfl⟩ : ∃ (b : Fin 32) (d : Fin 512), i = ix2 b d := ⟨i 0, i 1, eq_ix2 i⟩
  rw [squeeze_ix2]
  exact shapeCast_ab_a1b_apply _ _ b 0 d

/-- The first normalisation's shifts. -/
theorem V_pb (c : Dev nD) : squeeze (V m c main_v29 : S32x1x512.Idx → EReal)
    = Cert.ReferenceIdeal.Read.val_main_v25 (F := Ideal) (m ((c : Thread nD τ).loc main_arg0)) (m ((c : Thread nD τ).loc main_arg12)) (m ((c : Thread nD τ).loc main_arg13)) := by
  have e : (V m c main_v29 : S32x1x512.Idx → EReal)
      = shapeCast S32x1x512 (Cert.ReferenceIdeal.Read.val_main_v25 (F := Ideal) (m ((c : Thread nD τ).loc main_arg0)) (m ((c : Thread nD τ).loc main_arg12)) (m ((c : Thread nD τ).loc main_arg13))) shapeCasts_S32x512_S32x1x512 := by
    dsimp only [V, hostOps0]
    after_results_simp
    rfl
  rw [e]
  funext i
  obtain ⟨b, d, rfl⟩ : ∃ (b : Fin 32) (d : Fin 512), i = ix2 b d := ⟨i 0, i 1, eq_ix2 i⟩
  rw [squeeze_ix2]
  exact shapeCast_ab_a1b_apply _ _ b 0 d

/-- The second normalisation's scales. -/
theorem V_qw (c : Dev nD) : squeeze (V m c main_v34 : S32x1x512.Idx → EReal)
    = Cert.ReferenceIdeal.Read.val_main_v62 (F := Ideal) (m ((c : Thread nD τ).loc main_arg0)) (m ((c : Thread nD τ).loc main_arg14)) (m ((c : Thread nD τ).loc main_arg15)) := by
  have e : (V m c main_v34 : S32x1x512.Idx → EReal)
      = shapeCast S32x1x512 (Cert.ReferenceIdeal.Read.val_main_v62 (F := Ideal) (m ((c : Thread nD τ).loc main_arg0)) (m ((c : Thread nD τ).loc main_arg14)) (m ((c : Thread nD τ).loc main_arg15))) shapeCasts_S32x512_S32x1x512 := by
    dsimp only [V, hostOps0]
    after_results_simp
    rfl
  rw [e]
  funext i
  obtain ⟨b, d, rfl⟩ : ∃ (b : Fin 32) (d : Fin 512), i = ix2 b d := ⟨i 0, i 1, eq_ix2 i⟩
  rw [squeeze_ix2]
  exact shapeCast_ab_a1b_apply _ _ b 0 d

/-- The second normalisation's shifts. -/
theorem V_qb (c : Dev nD) : squeeze (V m c main_v39 : S32x1x512.Idx → EReal)
    = Cert.ReferenceIdeal.Read.val_main_v66 (F := Ideal) (m ((c : Thread nD τ).loc main_arg0)) (m ((c : Thread nD τ).loc main_arg16)) (m ((c : Thread nD τ).loc main_arg17)) := by
  have e : (V m c main_v39 : S32x1x512.Idx → EReal)
      = shapeCast S32x1x512 (Cert.ReferenceIdeal.Read.val_main_v66 (F := Ideal) (m ((c : Thread nD τ).loc main_arg0)) (m ((c : Thread nD τ).loc main_arg16)) (m ((c : Thread nD τ).loc main_arg17))) shapeCasts_S32x512_S32x1x512 := by
    dsimp only [V, hostOps0]
    after_results_simp
    rfl
  rw [e]
  funext i
  obtain ⟨b, d, rfl⟩ : ∃ (b : Fin 32) (d : Fin 512), i = ix2 b d := ⟨i 0, i 1, eq_ix2 i⟩
  rw [squeeze_ix2]
  exact shapeCast_ab_a1b_apply _ _ b 0 d

/-- THE KERNEL'S RESULT ARRAY in the reference's terms: `Spec.result` of the token argument and the reference's
    eight parameter stages of the same arguments. -/
theorem whole_eq (c : Dev nD) :
    whole m c = Spec.result (m ((c : Thread nD τ).loc main_arg1))
      (Cert.ReferenceIdeal.Read.val_main_v4 (F := Ideal) (m ((c : Thread nD τ).loc main_arg0)) (m ((c : Thread nD τ).loc main_arg2)) (m ((c : Thread nD τ).loc main_arg3)))
      (Cert.ReferenceIdeal.Read.val_main_v8 (F := Ideal) (m ((c : Thread nD τ).loc main_arg0)) (m ((c : Thread nD τ).loc main_arg4)) (m ((c : Thread nD τ).loc main_arg5)))
      (Cert.ReferenceIdeal.Read.val_main_v13 (F := Ideal) (m ((c : Thread nD τ).loc main_arg0)) (m ((c : Thread nD τ).loc main_arg6)) (m ((c : Thread nD τ).loc main_arg7)))
      (Cert.ReferenceIdeal.Read.val_main_v17 (F := Ideal) (m ((c : Thread nD τ).loc main_arg0)) (m ((c : Thread nD τ).loc main_arg8)) (m ((c : Thread nD τ).loc main_arg9)))
      (Cert.ReferenceIdeal.Read.val_main_v21 (F := Ideal) (m ((c : Thread nD τ).loc main_arg0)) (m ((c : Thread nD τ).loc main_arg10)) (m ((c : Thread nD τ).loc main_arg11)))
      (Cert.ReferenceIdeal.Read.val_main_v25 (F := Ideal) (m ((c : Thread nD τ).loc main_arg0)) (m ((c : Thread nD τ).loc main_arg12)) (m ((c : Thread nD τ).loc main_arg13)))
      (Cert.ReferenceIdeal.Read.val_main_v62 (F := Ideal) (m ((c : Thread nD τ).loc main_arg0)) (m ((c : Thread nD τ).loc main_arg14)) (m ((c : Thread nD τ).loc main_arg15)))
      (Cert.ReferenceIdeal.Read.val_main_v66 (F := Ideal) (m ((c : Thread nD τ).loc main_arg0)) (m ((c : Thread nD τ).loc main_arg16)) (m ((c : Thread nD τ).loc main_arg17))) := by
  unfold whole
  rw [V_wd, V_wu, V_bd, V_bu, V_pw, V_pb, V_qw, V_qb, V_main_arg1]

end Cert.KernelIdeal.Whole

end
-- ==== Proof.Claims.lean ====
/-
  The five conjuncts.

  The three frames are the generated runs.  The idealization pass rewrote nothing, so `preserves` is `True`.
  For `algebraic`: the kernel program's result array ends at `Spec.result` of the token argument and its eight
  host-computed parameter arrays, where each entry is the row map that multiplies by the reciprocal square root; the
  reference's ends at the same row map spelt with a division by the square root, of the same eight parameter stages of
  the same arguments.  The variance term is strictly positive on the extended reals, where the two spellings agree.
-/
import proofs.«121885_j51539607552027_1_alg».proof.Proof.Gen.Kernel.Frame
import proofs.«121885_j51539607552027_1_alg».proof.Proof.Gen.KernelIdeal.Frame
import proofs.«121885_j51539607552027_1_alg».proof.Proof.Gen.ReferenceIdeal.Run
import proofs.«121885_j51539607552027_1_alg».proof.Proof.Gen.ReferenceIdeal.Read
import proofs.«121885_j51539607552027_1_alg».proof.Proof.Gen.Pre_finite_inputs
import proofs.«121885_j51539607552027_1_alg».proof.Proof.KernelWhole
import proofs.«121885_j51539607552027_1_alg».proof.Proof.RefStages
import proofs.«121885_j51539607552027_1_alg».proof.Proof.HostGlue
import proofs.«121885_j51539607552027_1_alg».proof.Defs

noncomputable section

namespace Cert.Proof.Claims

open Idealize.ShloMosaic Idealize.ShloMosaic.TcCoe Idealize.SL.Sem

/-- The word-level kernel program terminates without fault and leaves its arguments as they were. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- So does the idealized reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization pass rewrote no operation. -/
theorem preserves : Cert.preserves_Kernel_KernelIdeal := trivial

/-- From memories that agree on the eighteen arguments both idealized programs end with the same result array:
    `Spec.result` of the token argument and the eight parameter stages of the arguments. -/
theorem algebraic : Cert.algebraic_KernelIdeal_ReferenceIdeal := by
  intro m ρ m' ρ' _ hagree
  refine ⟨fun c => Cert.KernelIdeal.Whole.whole m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17⟩ := hagree c
  show Cert.ReferenceIdeal.Value.res_main_v91 m' c = Cert.KernelIdeal.Whole.whole m c
  rw [Cert.ReferenceIdeal.Read.val_main_v91_eq, Cert.ReferenceIdeal.Stages.result_eq, Cert.KernelIdeal.Whole.whole_eq,
    h0, h1, h2, h3, h4, h5, h6, h7, h8, h9, h10, h11, h12, h13, h14, h15, h16, h17]

end Cert.Proof.Claims

end
-- ==== Proof.lean ====
/-
  `Cert.Claim` for a per-sample adapter between two layer normalisations.

  Each token row `x` of sample `b` is normalised with the sample's own scale and shift, projected down to 64
  channels, rectified, projected back up to 512, normalised again, and added to `x`; the sample's eight parameter
  arrays are products of its embedding with weight matrices, computed on the host by both programs alike.  The kernel
  program does this one block of 512 rows per grid point; the reference does it on the whole array.

  The two programs differ in one spelling: the kernel multiplies the centred row by the reciprocal square root of the
  variance, the reference divides it by the square root.  The variance is a mean of squares plus a positive constant,
  hence strictly positive on the extended reals whatever the inputs, and there the two agree (Proof/Spec.lean).  The
  kernel body at an index is Proof/KernelBody.lean, its blocks assembled into the array Proof/KernelWhole.lean, the
  reference's stages at an index Proof/RefStages.lean, the host-computed parameters Proof/HostGlue.lean, and the five
  conjuncts Proof/Claims.lean.
-/
import proofs.«121885_j51539607552027_1_alg».proof.Defs
import proofs.«121885_j51539607552027_1_alg».proof.Proof.Gen.Kernel
import proofs.«121885_j51539607552027_1_alg».proof.Proof.Gen.Kernel.Skeleton
import proofs.«121885_j51539607552027_1_alg».proof.Proof.Gen.Kernel.Launch
import proofs.«121885_j51539607552027_1_alg».proof.Proof.Gen.Kernel.Points
import proofs.«121885_j51539607552027_1_alg».proof.Proof.Gen.Kernel.Frame
import proofs.«121885_j51539607552027_1_alg».proof.Proof.Gen.KernelIdeal
import proofs.«121885_j51539607552027_1_alg».proof.Proof.Gen.KernelIdeal.Skeleton
import proofs.«121885_j51539607552027_1_alg».proof.Proof.Gen.KernelIdeal.Launch
import proofs.«121885_j51539607552027_1_alg».proof.Proof.Gen.KernelIdeal.Points
import proofs.«121885_j51539607552027_1_alg».proof.Proof.Gen.KernelIdeal.Frame
import proofs.«121885_j51539607552027_1_alg».proof.Proof.Gen.ReferenceIdeal
import proofs.«121885_j51539607552027_1_alg».proof.Proof.Gen.Pre_finite_inputs
import proofs.«121885_j51539607552027_1_alg».proof.Proof.Gen.KernelIdeal.Value
import proofs.«121885_j51539607552027_1_alg».proof.Proof.Gen.ReferenceIdeal.Run
import proofs.«121885_j51539607552027_1_alg».proof.Proof.Gen.ReferenceIdeal.Read
import proofs.«121885_j51539607552027_1_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
